-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x2048x64 : Shape := ⟨4, ![1, 8, 2048, 64]⟩
abbrev S1x8x2048x2048 : Shape := ⟨4, ![1, 8, 2048, 2048]⟩
abbrev S_ : Shape := ⟨0, ![]⟩

class Facts : Prop where
  bcast_S_S1x8x2048x64 : S_.BroadcastsInDim S1x8x2048x64 (![] : Fin 0 → Fin S1x8x2048x64.rank)
  reducesTo_S1x8x2048x64_S_d0_1_2_3 : S1x8x2048x64.ReducesTo [0, 1, 2, 3] S_
  h_S_ : 0 < S_.numel
  bcast_S_S1x8x2048x2048 : S_.BroadcastsInDim S1x8x2048x2048 (![] : Fin 0 → Fin S1x8x2048x2048.rank)
  reducesTo_S1x8x2048x2048_S_d0_1_2_3 : S1x8x2048x2048.ReducesTo [0, 1, 2, 3] S_

variable [Facts]

def fn_part1 {F : FTy → Type} [FloatOps F] (main_v13 : IVec S_ 1) (main_v16 : IVec S1x8x2048x2048 1) : IVec S_ 1 :=
  let main_c_5 : IVec S_ 1 := constantI S_ 1 1#1
  let main_v17 : IVec S_ 1 := (fun x v => Host.reduce IntOp.andi x v reducesTo_S1x8x2048x2048_S_d0_1_2_3 h_S_) main_v16 main_c_5
  let main_v18 : IVec S_ 1 := andi main_v13 main_v17
  main_v18

def fn {F : FTy → Type} [FloatOps F] (main_arg0 : FVec F S1x8x2048x64 .f32) (main_arg1 : FVec F S1x8x2048x64 .f32) (main_arg2 : FVec F S1x8x2048x64 .f32) (main_arg3 : FVec F S1x8x2048x2048 .f32) (main_arg4 : IVec S1x8x2048x2048 32) : IVec S_ 1 :=
  let main_v0 : FVec F S1x8x2048x64 .f32 := Host.absf main_arg0
  let main_cst : FVec F S_ .f32 := constant S_ .f32 0x7F800000#32
  let main_v1 : FVec F S1x8x2048x64 .f32 := broadcastInDim S1x8x2048x64 ![] bcast_S_S1x8x2048x64 main_cst
  let main_v2 : IVec S1x8x2048x64 1 := cmpf .olt main_v0 main_v1
  let main_c : IVec S_ 1 := constantI S_ 1 1#1
  let main_v3 : IVec S_ 1 := (fun x v => Host.reduce IntOp.andi x v reducesTo_S1x8x2048x64_S_d0_1_2_3 h_S_) main_v2 main_c
  let main_v4 : FVec F S1x8x2048x64 .f32 := Host.absf main_arg1
  let main_cst_0 : FVec F S_ .f32 := constant S_ .f32 0x7F800000#32
  let main_v5 : FVec F S1x8x2048x64 .f32 := broadcastInDim S1x8x2048x64 ![] bcast_S_S1x8x2048x64 main_cst_0
  let main_v6 : IVec S1x8x2048x64 1 := cmpf .olt main_v4 main_v5
  let main_c_1 : IVec S_ 1 := constantI S_ 1 1#1
  let main_v7 : IVec S_ 1 := (fun x v => Host.reduce IntOp.andi x v reducesTo_S1x8x2048x64_S_d0_1_2_3 h_S_) main_v6 main_c_1
  let main_v8 : IVec S_ 1 := andi main_v3 main_v7
  let main_v9 : FVec F S1x8x2048x64 .f32 := Host.absf main_arg2
  let main_cst_2 : FVec F S_ .f32 := constant S_ .f32 0x7F800000#32
  let main_v10 : FVec F S1x8x2048x64 .f32 := broadcastInDim S1x8x2048x64 ![] bcast_S_S1x8x2048x64 main_cst_2
  let main_v11 : IVec S1x8x2048x64 1 := cmpf .olt main_v9 main_v10
  let main_c_3 : IVec S_ 1 := constantI S_ 1 1#1
  let main_v12 : IVec S_ 1 := (fun x v => Host.reduce IntOp.andi x v reducesTo_S1x8x2048x64_S_d0_1_2_3 h_S_) main_v11 main_c_3
  let main_v13 : IVec S_ 1 := andi main_v8 main_v12
  let main_v14 : FVec F S1x8x2048x2048 .f32 := Host.absf main_arg3
  let main_cst_4 : FVec F S_ .f32 := constant S_ .f32 0x7F800000#32
  let main_v15 : FVec F S1x8x2048x2048 .f32 := broadcastInDim S1x8x2048x2048 ![] bcast_S_S1x8x2048x2048 main_cst_4
  let main_v16 : IVec S1x8x2048x2048 1 := cmpf .olt main_v14 main_v15
  fn_part1 (F := F) main_v13 main_v16
-- ==== Kernel.lean ====
abbrev S1x8x2048x64 : Shape := ⟨4, ![1, 8, 2048, 64]⟩
abbrev S1x8x2048x2048 : Shape := ⟨4, ![1, 8, 2048, 2048]⟩
abbrev S8x2048x64 : Shape := ⟨3, ![8, 2048, 64]⟩
abbrev S8x2048x2048 : Shape := ⟨3, ![8, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 14
  | .smem => 0
  | _ => 0

abbrev bufTy : (tb : Table) → Fin (tcTables nBuf tb) → BufTy
  | .hbm, ⟨0, _⟩ => ⟨S1x8x2048x64, .f32⟩
  | .hbm, ⟨1, _⟩ => ⟨S1x8x2048x64, .f32⟩
  | .hbm, ⟨2, _⟩ => ⟨S1x8x2048x64, .f32⟩
  | .hbm, ⟨3, _⟩ => ⟨S1x8x2048x2048, .f32⟩
  | .hbm, ⟨4, _⟩ => ⟨S1x8x2048x2048, .i32⟩
  | .hbm, ⟨5, _⟩ => ⟨S8x2048x64, .f32⟩
  | .hbm, ⟨6, _⟩ => ⟨S8x2048x64, .bf16⟩
  | .hbm, ⟨7, _⟩ => ⟨S8x2048x64, .f32⟩
  | .hbm, ⟨8, _⟩ => ⟨S8x2048x64, .bf16⟩
  | .hbm, ⟨9, _⟩ => ⟨S8x2048x64, .f32⟩
  | .hbm, ⟨10, _⟩ => ⟨S8x2048x64, .bf16⟩
  | .hbm, ⟨11, _⟩ => ⟨S8x2048x2048, .f32⟩
  | .hbm, ⟨12, _⟩ => ⟨S8x2048x2048, .i32⟩
  | .hbm, ⟨13, _⟩ => ⟨S8x2048x64, .f32⟩
  | .hbm, ⟨14, _⟩ => ⟨S8x2048x2048, .f32⟩
  | .hbm, ⟨15, _⟩ => ⟨S1x8x2048x64, .f32⟩
  | .hbm, ⟨16, _⟩ => ⟨S1x8x2048x2048, .f32⟩
  | .local _ .vmem, ⟨0, _⟩ => ⟨S1x512x64, .bf16⟩
  | .local _ .vmem, ⟨1, _⟩ => ⟨S1x512x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x2048, .f32⟩
  | .local _ .vmem, ⟨7, _⟩ => ⟨S1x512x2048, .f32⟩
  | .local _ .vmem, ⟨8, _⟩ => ⟨S1x512x2048, .i32⟩
  | .local _ .vmem, ⟨9, _⟩ => ⟨S1x512x2048, .i32⟩
  | .local _ .vmem, ⟨10, _⟩ => ⟨S1x512x64, .f32⟩
  | .local _ .vmem, ⟨11, _⟩ => ⟨S1x512x64, .f32⟩
  | .local _ .vmem, ⟨12, _⟩ => ⟨S1x512x2048, .f32⟩
  | .local _ .vmem, ⟨13, _⟩ => ⟨S1x512x2048, .f32⟩
  | _, _ => ⟨S1x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S1x8x2048x64_S8x2048x64 : S1x8x2048x64.ShapeCasts S8x2048x64
  bitsLt_bf16_f32 : FTy.bits .bf16 < FTy.bits .f32
  shapeCasts_S1x8x2048x2048_S8x2048x2048 : S1x8x2048x2048.ShapeCasts S8x2048x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  shapeCasts_S8x2048x64_S1x8x2048x64 : S8x2048x64.ShapeCasts S1x8x2048x64
  shapeCasts_S8x2048x2048_S1x8x2048x2048 : S8x2048x2048.ShapeCasts S1x8x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S8x2048x64.size a
  hwx0_0 : ∀ i : grid0.Coords, EltTy.bits .bf16 = 32 ∨ (Rect.block (s := S8x2048x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .bf16 = 32 ∨ (Rect.block (s := S8x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .bf16 = 32 ∨ (Rect.block (s := S8x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x2048x2048.size a
  hwx0_4 : ∀ i : grid0.Coords, EltTy.bits .i32 = 32 ∨ (Rect.block (s := S8x2048x2048) S1x512x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S8x2048x64.size a
  hwx0_5 : ∀ i : grid0.Coords, EltTy.bits .f32 = 32 ∨ (Rect.block (s := S8x2048x64) S1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S8x2048x2048.size a
  hwx0_6 : ∀ i : grid0.Coords, EltTy.bits .f32 = 32 ∨ (Rect.block (s := S8x2048x2048) S1x512x2048.size (cc0_transform_6 i) (hinb0_6 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x8x2048x64 : Shape := ⟨4, ![1, 8, 2048, 64]⟩
abbrev S1x8x2048x2048 : Shape := ⟨4, ![1, 8, 2048, 2048]⟩
abbrev S_ : Shape := ⟨0, ![]⟩
abbrev S1x8x2048 : Shape := ⟨3, ![1, 8, 2048]⟩
abbrev S1x8x2048x1 : Shape := ⟨4, ![1, 8, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S1x8x2048x64, .f32⟩
  | .hbm, ⟨1, _⟩ => ⟨S1x8x2048x64, .f32⟩
  | .hbm, ⟨2, _⟩ => ⟨S1x8x2048x64, .f32⟩
  | .hbm, ⟨3, _⟩ => ⟨S1x8x2048x2048, .f32⟩
  | .hbm, ⟨4, _⟩ => ⟨S1x8x2048x2048, .i32⟩
  | .hbm, ⟨5, _⟩ => ⟨S_, .f32⟩
  | .hbm, ⟨6, _⟩ => ⟨S1x8x2048x64, .f32⟩
  | .hbm, ⟨7, _⟩ => ⟨S1x8x2048x64, .f32⟩
  | .hbm, ⟨8, _⟩ => ⟨S1x8x2048x2048, .f32⟩
  | .hbm, ⟨9, _⟩ => ⟨S1x8x2048x2048, .f32⟩
  | .hbm, ⟨10, _⟩ => ⟨S_, .i32⟩
  | .hbm, ⟨11, _⟩ => ⟨S1x8x2048x2048, .i32⟩
  | .hbm, ⟨12, _⟩ => ⟨S1x8x2048x2048, .i1⟩
  | .hbm, ⟨13, _⟩ => ⟨S_, .f32⟩
  | .hbm, ⟨14, _⟩ => ⟨S_, .f32⟩
  | .hbm, ⟨15, _⟩ => ⟨S1x8x2048x2048, .f32⟩
  | .hbm, ⟨16, _⟩ => ⟨S1x8x2048x2048, .f32⟩
  | .hbm, ⟨17, _⟩ => ⟨S_, .f32⟩
  | .hbm, ⟨18, _⟩ => ⟨S1x8x2048, .f32⟩
  | .hbm, ⟨19, _⟩ => ⟨S_, .f32⟩
  | .hbm, ⟨20, _⟩ => ⟨S1x8x2048, .f32⟩
  | .hbm, ⟨21, _⟩ => ⟨S1x8x2048, .f32⟩
  | .hbm, ⟨22, _⟩ => ⟨S1x8x2048x1, .f32⟩
  | .hbm, ⟨23, _⟩ => ⟨S1x8x2048x2048, .f32⟩
  | .hbm, ⟨24, _⟩ => ⟨S1x8x2048x2048, .f32⟩
  | .hbm, ⟨25, _⟩ => ⟨S1x8x2048x2048, .f32⟩
  | .hbm, ⟨26, _⟩ => ⟨S_, .f32⟩
  | .hbm, ⟨27, _⟩ => ⟨S1x8x2048, .f32⟩
  | .hbm, ⟨28, _⟩ => ⟨S1x8x2048x1, .f32⟩
  | .hbm, ⟨29, _⟩ => ⟨S1x8x2048x2048, .f32⟩
  | .hbm, ⟨30, _⟩ => ⟨S1x8x2048x2048, .f32⟩
  | .hbm, ⟨31, _⟩ => ⟨S1x8x2048x64, .f32⟩
  | _, _ => ⟨S1x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S_S1x8x2048x64 : S_.BroadcastsInDim S1x8x2048x64 (![] : Fin 0 → Fin S1x8x2048x64.rank)
  bcast_S_S1x8x2048x2048 : S_.BroadcastsInDim S1x8x2048x2048 (![] : Fin 0 → Fin S1x8x2048x2048.rank)
  reducesTo_S1x8x2048x2048_S1x8x2048_d3 : S1x8x2048x2048.ReducesTo [3] S1x8x2048
  h_S_ : 0 < S_.numel
  bcast_S_S1x8x2048 : S_.BroadcastsInDim S1x8x2048 (![] : Fin 0 → Fin S1x8x2048.rank)
  bcast_S1x8x2048_S1x8x2048x1_0_1_2 : S1x8x2048.BroadcastsInDim S1x8x2048x1 (![0, 1, 2] : Fin 3 → Fin S1x8x2048x1.rank)
  bcast_S1x8x2048x1_S1x8x2048x2048_0_1_2_3 : S1x8x2048x1.BroadcastsInDim S1x8x2048x2048 (![0, 1, 2, 3] : Fin 4 → Fin S1x8x2048x2048.rank)
  dot_S1x8x2048x64_S1x8x2048x64_S1x8x2048x2048_3_3_2_2_01_01_wf : DotDims.WF S1x8x2048x64 S1x8x2048x64 S1x8x2048x2048 [3] [3] [2] [2] [0, 1] [0, 1]
  dot_S1x8x2048x2048_S1x8x2048x64_S1x8x2048x64_3_2_2_3_01_01_wf : DotDims.WF S1x8x2048x2048 S1x8x2048x64 S1x8x2048x64 [3] [2] [2] [3] [0, 1] [0, 1]

variable [Facts₀]

def dot_S1x8x2048x64_S1x8x2048x64_S1x8x2048x2048_3_3_2_2_01_01 : DotDims S1x8x2048x64 S1x8x2048x64 S1x8x2048x2048 where
  lhsContracting := [3]
  rhsContracting := [3]
  lhsNonContracting := [2]
  rhsNonContracting := [2]
  lhsBatch := [0, 1]
  rhsBatch := [0, 1]
  wf := dot_S1x8x2048x64_S1x8x2048x64_S1x8x2048x2048_3_3_2_2_01_01_wf
def dot_S1x8x2048x2048_S1x8x2048x64_S1x8x2048x64_3_2_2_3_01_01 : DotDims S1x8x2048x2048 S1x8x2048x64 S1x8x2048x64 where
  lhsContracting := [3]
  rhsContracting := [2]
  lhsNonContracting := [2]
  rhsNonContracting := [3]
  lhsBatch := [0, 1]
  rhsBatch := [0, 1]
  wf := dot_S1x8x2048x2048_S1x8x2048x64_S1x8x2048x64_3_2_2_3_01_01_wf

class Facts : Prop extends Facts₀ where

variable [Facts]
-- ==== Proof.Softmax.lean ====
/-
  One query row of masked, biased softmax attention over the extended reals, and the whole arrays built from it.

  A row is given by its scaled query vector `qs` (64 entries), the head's key matrix `km` (2048 × 64), the row's
  multiplicative bias `bias` and integer mask `msk` (2048 entries each) and the head's value matrix `vm` (2048 × 64).
  Its score at key j is (Σ_d qs d · km j d) · bias j, replaced by the fill value where the mask word is zero; the row's
  weights are exp (score − max score) normalised by their sum; the row's output is the weights applied to `vm`.
  The normalisation is written twice: as the quotient e / l, and as the product e · (1 / l). The two agree as soon as
  l ≠ 0, which holds when the row's data are real numbers (every weight is then a positive real).
-/
import Idealize.ShloMosaic.PureOps.Ideal
import Idealize.ShloMosaic.PureOps.Ideal.Laws
import Idealize.ShloMosaic.Lib.ValueIdx

noncomputable section

namespace Cert.Softmax

open Idealize.ShloMosaic Idealize.ShloMosaic.ValueIdx

/-- The value written over a masked score: the f32 word of −10⁹ (never evaluated: both programs spell the same word). -/
abbrev fill : EReal := Ideal.ofBits .f32 0xCE6E6B28#32
/-- The word a row maximum starts from: f32 −∞. -/
abbrev negInf : EReal := Ideal.ofBits .f32 0xFF800000#32
/-- The f32 word of 1.0, the numerator of the reciprocal. -/
abbrev one32 : EReal := Ideal.ofBits .f32 0x3F800000#32
/-- The bf16 word of 0.125, the factor the kernel scales a query entry by. -/
abbrev eighth : EReal := Ideal.ofBits .bf16 0x3E00#16
/-- The f32 word of 8.0, the divisor the reference scales a query entry by. -/
abbrev eight : EReal := Ideal.ofBits .f32 0x41000000#32

/-! ## One row -/

section Row

variable (qs : Fin 64 → EReal) (km : Fin 2048 → Fin 64 → EReal) (bias : Fin 2048 → EReal) (msk : Fin 2048 → BitVec 32)
  (vm : Fin 2048 → Fin 64 → EReal)

/-- The masked, biased score of the row against key j. -/
def score (j : Fin 2048) : EReal :=
  Scalar.select (IntOp.cmpi .eq (msk j) 0#32) fill ((∑ d : Fin 64, qs d * km j d) * bias j)

/-- The row's largest score (from −∞). -/
def rowMax : EReal := (Finset.univ : Finset (Fin 2048)).fold max negInf (score qs km bias msk)

/-- The unnormalised weight of key j. -/
def expo (j : Fin 2048) : EReal := Ideal.exp (score qs km bias msk j - rowMax qs km bias msk)

/-- The normaliser: the sum of the row's unnormalised weights. -/
def rowSum : EReal := ∑ j : Fin 2048, expo qs km bias msk j

/-- The weight of key j, normalised by a quotient. -/
def prob (j : Fin 2048) : EReal := Ideal.div (expo qs km bias msk j) (rowSum qs km bias msk)

/-- The weight of key j, normalised by the product with the reciprocal. -/
def probK (j : Fin 2048) : EReal := expo qs km bias msk j * Ideal.div one32 (rowSum qs km bias msk)

/-- The row's output at feature d, over quotient weights. -/
def out (d : Fin 64) : EReal := ∑ j : Fin 2048, prob qs km bias msk j * vm j d

/-- The row's output at feature d, over reciprocal weights. -/
def outK (d : Fin 64) : EReal := ∑ j : Fin 2048, probK qs km bias msk j * vm j d

end Row

/-! ## The laws that join the two programs -/

/-- The bf16 word 0x3E00 denotes the real 1/8. -/
theorem eighth_eq : eighth = ((1 / 8 : ℝ) : EReal) := by
  simp [Ideal.ofBits, Ideal.ieee, -EReal.coe_mul]; norm_num

/-- The f32 word 0x41000000 denotes the real 8. -/
theorem eight_eq : eight = ((8 : ℝ) : EReal) := by
  simp [Ideal.ofBits, Ideal.ieee, -EReal.coe_mul]; norm_num

/-- The f32 word 0x3F800000 denotes 1. -/
theorem one32_eq : one32 = 1 := by
  simp [Ideal.ofBits, Ideal.ieee, -EReal.coe_mul]; norm_num

/-- The f32 word 0xFF800000 denotes −∞. -/
theorem negInf_eq : negInf = ⊥ := by
  simp [Ideal.ofBits, Ideal.ieee]

/-- The fill word's exponent field is not all ones, so it denotes a real number. -/
theorem fill_real : ∃ r : ℝ, fill = (r : EReal) := by
  have h : fill ≠ ⊤ ∧ fill ≠ ⊥ := by
    simp [Ideal.ofBits, Ideal.ieee, -EReal.coe_mul]
  exact ⟨fill.toReal, (EReal.coe_toReal h.1 h.2).symm⟩

/-- A finite sum of real numbers is a real number. -/
theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

/-- A product of two real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- Over real data every score is a real number: the fill value, or a finite sum of products of reals times a real. -/
theorem score_real (qs : Fin 64 → EReal) (km : Fin 2048 → Fin 64 → EReal) (bias : Fin 2048 → EReal) (msk : Fin 2048 → BitVec 32)
    (hq : ∀ d, ∃ r : ℝ, qs d = (r : EReal)) (hk : ∀ j d, ∃ r : ℝ, km j d = (r : EReal)) (hb : ∀ j, ∃ r : ℝ, bias j = (r : EReal))
    (j : Fin 2048) : ∃ r : ℝ, score qs km bias msk j = (r : EReal) := by
  unfold score Scalar.select
  split_ifs
  · exact fill_real
  · exact mul_real (sum_real _ _ fun d _ => mul_real (hq d) (hk j d)) (hb j)

/-- Over real data the row maximum is not +∞: it starts from −∞ and every score is below +∞. -/
theorem rowMax_lt_top (qs : Fin 64 → EReal) (km : Fin 2048 → Fin 64 → EReal) (bias : Fin 2048 → EReal) (msk : Fin 2048 → BitVec 32)
    (hq : ∀ d, ∃ r : ℝ, qs d = (r : EReal)) (hk : ∀ j d, ∃ r : ℝ, km j d = (r : EReal)) (hb : ∀ j, ∃ r : ℝ, bias j = (r : EReal)) :
    rowMax qs km bias msk < ⊤ := by
  unfold rowMax
  refine (Finset.fold_max_lt _).2 ⟨?_, fun j _ => ?_⟩
  · rw [negInf_eq]; exact bot_lt_top
  · obtain ⟨r, hr⟩ := score_real qs km bias msk hq hk hb j
    rw [hr]; exact EReal.coe_lt_top r

/-- The exponential of a real number minus anything below +∞ is positive. -/
theorem exp_sub_pos (r : ℝ) {m : EReal} (hm : m < ⊤) : 0 < Ideal.exp ((r : EReal) - m) := by
  induction m using EReal.rec with
  | bot => rw [EReal.coe_sub_bot, Ideal.exp_top]; exact EReal.zero_lt_top
  | coe a => rw [← EReal.coe_sub, Ideal.exp_coe]; exact EReal.coe_pos.2 (Real.exp_pos _)
  | top => exact absurd hm (lt_irrefl _)

/-- Over real data every unnormalised weight is positive. -/
theorem expo_pos (qs : Fin 64 → EReal) (km : Fin 2048 → Fin 64 → EReal) (bias : Fin 2048 → EReal) (msk : Fin 2048 → BitVec 32)
    (hq : ∀ d, ∃ r : ℝ, qs d = (r : EReal)) (hk : ∀ j d, ∃ r : ℝ, km j d = (r : EReal)) (hb : ∀ j, ∃ r : ℝ, bias j = (r : EReal))
    (j : Fin 2048) : 0 < expo qs km bias msk j := by
  unfold expo
  obtain ⟨r, hr⟩ := score_real qs km bias msk hq hk hb j
  rw [hr]
  exact exp_sub_pos r (rowMax_lt_top qs km bias msk hq hk hb)

/-- Over real data the normaliser is positive: a sum over a nonempty range of positive terms. -/
theorem rowSum_pos (qs : Fin 64 → EReal) (km : Fin 2048 → Fin 64 → EReal) (bias : Fin 2048 → EReal) (msk : Fin 2048 → BitVec 32)
    (hq : ∀ d, ∃ r : ℝ, qs d = (r : EReal)) (hk : ∀ j d, ∃ r : ℝ, km j d = (r : EReal)) (hb : ∀ j, ∃ r : ℝ, bias j = (r : EReal)) :
    0 < rowSum qs km bias msk := by
  unfold rowSum
  refine (Finset.sum_pos_iff_of_nonneg fun j _ => (expo_pos qs km bias msk hq hk hb j).le).2 ?_
  exact ⟨0, Finset.mem_univ _, expo_pos qs km bias msk hq hk hb 0⟩

/-- Off a zero divisor the quotient is the product with the inverse. -/
theorem div_of_ne_zero (x : EReal) {y : EReal} (h : y ≠ 0) : Ideal.div x y = x * y⁻¹ := by
  unfold Ideal.div; exact if_neg h

/-- 0.125 is 1/8 exactly, so scaling by it is dividing by 8, on every extended real. -/
theorem scale_eq (x : EReal) : x * eighth = Ideal.div x eight := by
  rw [eighth_eq, eight_eq, Ideal.div_coe (by norm_num)]

/-- A real number divided by 8 is a real number. -/
theorem real_div_eight {x : EReal} (hx : ∃ r : ℝ, x = (r : EReal)) : ∃ r : ℝ, Ideal.div x eight = (r : EReal) := by
  obtain ⟨a, rfl⟩ := hx
  exact ⟨a * (1 / 8), by rw [eight_eq, Ideal.div_coe (by norm_num), EReal.coe_mul]⟩

/-- A maximum taken once more against −∞ is itself. -/
theorem max_negInf (x : EReal) : max negInf x = x := by
  rw [negInf_eq]; exact max_bot_left x

/-- A sum started from the f32 zero word is the sum. -/
theorem zero_add32 (x : EReal) : Ideal.ofBits .f32 0x00000000#32 + x = x := by
  rw [Ideal.ofBits_zero_f32, zero_add]

/-- Over real data the row's normaliser is not zero, so the product with the reciprocal is the quotient. -/
theorem probK_eq_prob (qs : Fin 64 → EReal) (km : Fin 2048 → Fin 64 → EReal) (bias : Fin 2048 → EReal) (msk : Fin 2048 → BitVec 32)
    (hq : ∀ d, ∃ r : ℝ, qs d = (r : EReal)) (hk : ∀ j d, ∃ r : ℝ, km j d = (r : EReal)) (hb : ∀ j, ∃ r : ℝ, bias j = (r : EReal))
    (j : Fin 2048) : probK qs km bias msk j = prob qs km bias msk j := by
  have hl : rowSum qs km bias msk ≠ 0 := (rowSum_pos qs km bias msk hq hk hb).ne'
  unfold probK prob
  rw [div_of_ne_zero _ hl, div_of_ne_zero _ hl, one32_eq, one_mul]

/-- So the two outputs agree too. -/
theorem outK_eq_out (qs : Fin 64 → EReal) (km : Fin 2048 → Fin 64 → EReal) (bias : Fin 2048 → EReal) (msk : Fin 2048 → BitVec 32)
    (vm : Fin 2048 → Fin 64 → EReal)
    (hq : ∀ d, ∃ r : ℝ, qs d = (r : EReal)) (hk : ∀ j d, ∃ r : ℝ, km j d = (r : EReal)) (hb : ∀ j, ∃ r : ℝ, bias j = (r : EReal))
    (d : Fin 64) : outK qs km bias msk vm d = out qs km bias msk vm d :=
  Finset.sum_congr rfl fun j _ => by rw [probK_eq_prob qs km bias msk hq hk hb j]

/-! ## The whole arrays: batch 1, 8 heads, 2048 queries and keys, 64 features -/

/-- The shape of q, k, v and of the output. -/
abbrev SQ : Shape := ⟨4, ![1, 8, 2048, 64]⟩
/-- The shape of the bias, the mask and the weights. -/
abbrev SP : Shape := ⟨4, ![1, 8, 2048, 2048]⟩

section Arrays

variable (q k v : SQ.Idx → EReal) (sph : SP.Idx → EReal) (mask : SP.Idx → BitVec 32)

/-- Query row i of head h, each entry divided by 8. -/
abbrev qrow (h : Fin 8) (i : Fin 2048) : Fin 64 → EReal := fun d => Ideal.div (q (ix4 (0 : Fin 1) h i d)) eight
/-- Head h of a [1, 8, 2048, 64] array as a 2048 × 64 matrix. -/
abbrev hmat (a : SQ.Idx → EReal) (h : Fin 8) : Fin 2048 → Fin 64 → EReal := fun j d => a (ix4 (0 : Fin 1) h j d)
/-- Row i of head h of the bias. -/
abbrev brow (h : Fin 8) (i : Fin 2048) : Fin 2048 → EReal := fun j => sph (ix4 (0 : Fin 1) h i j)
/-- Row i of head h of the mask. -/
abbrev mrow (h : Fin 8) (i : Fin 2048) : Fin 2048 → BitVec 32 := fun j => mask (ix4 (0 : Fin 1) h i j)

/-- The attention weights: at (0, h, i, j) the weight of key j in row i of head h. -/
def attnP : SP.Idx → EReal := fun y =>
  prob (qrow q (y 1) (y 2)) (hmat k (y 1)) (brow sph (y 1) (y 2)) (mrow mask (y 1) (y 2)) (y 3)

/-- The attention output: at (0, h, i, d) feature d of row i of head h. -/
def attnO : SQ.Idx → EReal := fun y =>
  out (qrow q (y 1) (y 2)) (hmat k (y 1)) (brow sph (y 1) (y 2)) (mrow mask (y 1) (y 2)) (hmat v (y 1)) (y 3)

theorem attnP_apply (a : Fin 1) (h : Fin 8) (i j : Fin 2048) :
    attnP q k sph mask (ix4 a h i j) = prob (qrow q h i) (hmat k h) (brow sph h i) (mrow mask h i) j := rfl

theorem attnO_apply (a : Fin 1) (h : Fin 8) (i : Fin 2048) (d : Fin 64) :
    attnO q k v sph mask (ix4 a h i d) = out (qrow q h i) (hmat k h) (brow sph h i) (mrow mask h i) (hmat v h) d := rfl

end Arrays

end Cert.Softmax

end
-- ==== Proof.RealInputs.lean ====
/-
  What the precondition says: each of the four float arguments has only finite entries, that is, every entry is
  a real number. The predicate takes |x| < +∞ entry by entry, conjoins over each array, and conjoins the four.
-/
import proofs.«413361_j67276367725148_3_alg».proof.Pre_finite_inputs
import proofs.«413361_j67276367725148_3_alg».proof.Proof.Gen.Pre_finite_inputs
import proofs.«413361_j67276367725148_3_alg».proof.Proof.Softmax
import Idealize.ShloMosaic.Lib.ReduceAll
import Idealize.ShloMosaic.PureOps.Ideal.Laws

noncomputable section

namespace Cert.Pre_finite_inputs.Real

open Idealize.ShloMosaic Cert.Softmax

/-- The f32 word of +∞ denotes the top extended real. -/
theorem ofBits_inf : Ideal.ofBits .f32 0x7F800000#32 = ⊤ := by simp [Ideal.ofBits, Ideal.ieee]

/-- An extended real whose absolute value max x (-x) is below +∞ is a real number: at x = ⊥ and at x = ⊤ the
    absolute value is ⊤, which is not below ⊤. -/
theorem real_of_abs_lt_top (x : EReal) (h : Ideal.cmp .olt (max x (-x)) ⊤ = 1#1) : ∃ r : ℝ, x = (r : EReal) := by
  induction x using EReal.rec with
  | bot => exfalso; simp [Ideal.cmp] at h
  | coe r => exact ⟨r, rfl⟩
  | top => exfalso; simp [Ideal.cmp] at h

/-- One array of any shape: where the comparison |x| < +∞ (the +∞ a broadcast scalar) is 1 at an entry, that entry
    is a real number. -/
theorem real_of_entry {S : Shape} (hb : Cert.Pre_finite_inputs.S_.BroadcastsInDim S (![] : Fin 0 → Fin S.rank))
    (x : FVec Ideal S .f32) (i : S.Idx)
    (h : cmpf .olt (Host.absf x)
      (broadcastInDim S ![] hb (constant (F := Ideal) Cert.Pre_finite_inputs.S_ .f32 0x7F800000#32)) i = 1#1) :
    ∃ r : ℝ, (x i : EReal) = (r : EReal) := by
  apply real_of_abs_lt_top
  rw [← ofBits_inf]
  exact h

/-- The rank-0 shape has exactly one index. -/
instance : Subsingleton Cert.Pre_finite_inputs.S_.Idx := ⟨fun a b => funext fun d => d.elim0⟩

/-- If the predicate is all ones on the arguments, every entry of q, k, v and the bias is a real number. -/
theorem real_of_pre [Cert.Pre_finite_inputs.Facts] (x0 x1 x2 : FVec Ideal Cert.Pre_finite_inputs.S1x8x2048x64 .f32)
    (x3 : FVec Ideal Cert.Pre_finite_inputs.S1x8x2048x2048 .f32) (x4 : IVec Cert.Pre_finite_inputs.S1x8x2048x2048 32)
    (h : Cert.Pre_finite_inputs.fn (F := Ideal) x0 x1 x2 x3 x4 = fun _ => 1#1) :
    (∀ i, ∃ r : ℝ, (x0 i : EReal) = (r : EReal)) ∧ (∀ i, ∃ r : ℝ, (x1 i : EReal) = (r : EReal))
      ∧ (∀ i, ∃ r : ℝ, (x2 i : EReal) = (r : EReal)) ∧ (∀ i, ∃ r : ℝ, (x3 i : EReal) = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_entry _ x0 i (Host.reduce_andi_all _ _ _ _ _ h0' i),
    fun i => real_of_entry _ x1 i (Host.reduce_andi_all _ _ _ _ _ h1 i),
    fun i => real_of_entry _ x2 i (Host.reduce_andi_all _ _ _ _ _ h2 i),
    fun i => real_of_entry _ x3 i (Host.reduce_andi_all _ _ _ _ _ h3 i)⟩

end Cert.Pre_finite_inputs.Real

end
-- ==== Proof.RefValue.lean ====
/-
  The reference program's two results are the attention weights and the attention output of the specification:
  its scores are the einsum of q / 8 with k times the bias, masked to the fill value; its softmax subtracts the row
  maximum (taken once more against −∞, which changes nothing), exponentiates, and divides by the row sum (started
  from zero); its output is the einsum of the weights with v.
-/
import proofs.«413361_j67276367725148_3_alg».proof.Proof.Gen.ReferenceIdeal.Read
import proofs.«413361_j67276367725148_3_alg».proof.Proof.Softmax
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.Softmax

/-! ## The composed index functions at an index given by its coordinates -/

/-- The score einsum reads the query at (a, h, i, k) … -/
theorem lidx_v2_ix (a : Fin 1) (h : Fin 8) (i j : Fin 2048) (k : Fin 64) :
    Read.lidx_main_v2 (ix4 a h i j) k = ix4 a h i k :=
  funext fun c => Fin.ext (by match c with | ⟨0, _⟩ => rfl | ⟨1, _⟩ => rfl | ⟨2, _⟩ => rfl | ⟨3, _⟩ => rfl)

/-- … and the key at (a, h, j, k). -/
theorem ridx_v2_ix (a : Fin 1) (h : Fin 8) (i j : Fin 2048) (k : Fin 64) :
    Read.ridx_main_v2 (ix4 a h i j) k = ix4 a h j k :=
  funext fun c => Fin.ext (by match c with | ⟨0, _⟩ => rfl | ⟨1, _⟩ => rfl | ⟨2, _⟩ => rfl | ⟨3, _⟩ => rfl)

/-- The scaled query entry: the query entry divided by 8. -/
theorem scaled_stage (x0 : (⟨S1x8x2048x64, .f32⟩ : BufTy).Contents (Elt Ideal)) (y : S1x8x2048x64.Idx) :
    Read.val_main_v1 (F := Ideal) x0 y = Ideal.div (x0 y) eight := by
  rw [Read.val_main_v1_apply, Read.val_main_v0_apply, Read.val_main_cst_apply]
  rfl

/-- The masked, biased score at (a, h, i, j) is the specification's score of row i of head h at key j. -/
theorem score_stage (x0 x1 : (⟨S1x8x2048x64, .f32⟩ : BufTy).Contents (Elt Ideal)) (x3 : (⟨S1x8x2048x2048, .f32⟩ : BufTy).Contents (Elt Ideal))
    (x4 : (⟨S1x8x2048x2048, .i32⟩ : BufTy).Contents (Elt Ideal)) (a : Fin 1) (h : Fin 8) (i j : Fin 2048) :
    Read.val_main_v6 (F := Ideal) x0 x1 x3 x4 (ix4 a h i j)
      = score (qrow x0 h i) (hmat x1 h) (brow x3 h i) (mrow x4 h i) j := by
  obtain rfl : a = 0 := Subsingleton.elim _ _
  rw [Read.val_main_v6_apply, Read.val_main_v5_apply, Read.val_main_v4_apply, Read.val_main_c_apply,
    Read.val_main_call0_v1_apply, Read.val_main_call0_v0_apply, Read.val_main_cst_0_apply,
    Read.val_main_v3_apply, Read.val_main_v2_apply]
  unfold score
  refine congrArg (Scalar.select _ _) ?_
  rw [Ideal.mulf_def]
  refine congrArg (· * _) (Finset.sum_congr rfl fun k _ => ?_)
  rw [lidx_v2_ix, ridx_v2_ix, scaled_stage]

/-! ## The row maximum -/

/-- The reduced index (a, h, i) with key coordinate k put back is (a, h, i, k). -/
theorem lift_ix3 (hr : S1x8x2048x2048.Reduces [3] S1x8x2048) (a : Fin 1) (h : Fin 8) (i : Fin 2048)
    (k : Fin (S1x8x2048x2048.size 3)) : hr.lift (ix3 a h i) k = ix4 a h i (⟨k.val, k.isLt⟩ : Fin 2048) :=
  funext fun c => Fin.ext (by match c with | ⟨0, _⟩ => rfl | ⟨1, _⟩ => rfl | ⟨2, _⟩ => rfl | ⟨3, _⟩ => rfl)

/-- A maximum-reduce over the key axis from −∞, read at a row, is the fold of the row's entries. -/
theorem reduceMax_row (y : FVec Ideal S1x8x2048x2048 .f32) (h' : S1x8x2048x2048.ReducesTo [3] S1x8x2048) (hu : 0 < S_.numel)
    (a : Fin 1) (h : Fin 8) (i : Fin 2048) :
    Host.reduce FloatOps.maximumf y (Read.val_main_cst_1 (F := Ideal)) h' hu (ix3 a h i)
      = (Finset.univ : Finset (Fin 2048)).fold max negInf (fun j => y (ix4 a h i j)) := by
  have hr : S1x8x2048x2048.Reduces [3] S1x8x2048 := by decide
  rw [Host.reduce_eq_fold_single FloatOps.maximumf y _ h' hr hu]
  have hf : (y ∘ hr.lift (ix3 a h i)) = fun j : Fin 2048 => y (ix4 a h i j) :=
    funext fun k => congrArg y (lift_ix3 hr a h i k)
  exact congrArg (fun f => Finset.fold max negInf f (Finset.univ : Finset (Fin 2048))) hf

/-- The row maximum, taken once more against −∞, is the specification's row maximum. -/
theorem max_stage (x0 x1 : (⟨S1x8x2048x64, .f32⟩ : BufTy).Contents (Elt Ideal)) (x3 : (⟨S1x8x2048x2048, .f32⟩ : BufTy).Contents (Elt Ideal))
    (x4 : (⟨S1x8x2048x2048, .i32⟩ : BufTy).Contents (Elt Ideal)) (a : Fin 1) (h : Fin 8) (i : Fin 2048) :
    Read.val_main_v9 (F := Ideal) x0 x1 x3 x4 (ix3 a h i)
      = rowMax (qrow x0 h i) (hmat x1 h) (brow x3 h i) (mrow x4 h i) := by
  rw [Read.val_main_v9_apply, Read.val_main_v8_apply, Read.val_main_cst_2_apply, Ideal.maximumf_def, Ideal.ofBits_def, max_negInf]
  unfold Read.val_main_v7 rowMax
  refine (reduceMax_row _ _ _ a h i).trans ?_
  exact congrArg (fun f => Finset.fold max negInf f (Finset.univ : Finset (Fin 2048)))
    (funext fun j => score_stage x0 x1 x3 x4 a h i j)

/-! ## The exponentials, their sum, the weights, the output -/

/-- Broadcasting a per-row value back over the key axis reads it at the row. -/
theorem bcast_max_ix (a : Fin 1) (h : Fin 8) (i j : Fin 2048) :
    Read.idx_main_v10 (Read.idx_main_v11 (ix4 a h i j)) = ix3 a h i := by
  obtain rfl : a = 0 := Subsingleton.elim _ _
  exact funext fun c => Fin.ext (by match c with | ⟨0, _⟩ => rfl | ⟨1, _⟩ => rfl | ⟨2, _⟩ => rfl)

/-- The same for the row sum. -/
theorem bcast_sum_ix (a : Fin 1) (h : Fin 8) (i j : Fin 2048) :
    Read.idx_main_v15 (Read.idx_main_v16 (ix4 a h i j)) = ix3 a h i := by
  obtain rfl : a = 0 := Subsingleton.elim _ _
  exact funext fun c => Fin.ext (by match c with | ⟨0, _⟩ => rfl | ⟨1, _⟩ => rfl | ⟨2, _⟩ => rfl)

/-- The row sum at (a, h, i) adds the entries at (a, h, i, k). -/
theorem idx_v14_ix (a : Fin 1) (h : Fin 8) (i k : Fin 2048) :
    Read.idx_main_v14 (ix3 a h i) k = ix4 a h i k :=
  funext fun c => Fin.ext (by match c with | ⟨0, _⟩ => rfl | ⟨1, _⟩ => rfl | ⟨2, _⟩ => rfl | ⟨3, _⟩ => rfl)

/-- The output einsum reads the weights at (a, h, i, k) … -/
theorem lidx_v18_ix (a : Fin 1) (h : Fin 8) (i : Fin 2048) (d : Fin 64) (k : Fin 2048) :
    Read.lidx_main_v18 (ix4 a h i d) k = ix4 a h i k :=
  funext fun c => Fin.ext (by match c with | ⟨0, _⟩ => rfl | ⟨1, _⟩ => rfl | ⟨2, _⟩ => rfl | ⟨3, _⟩ => rfl)

/-- … and the values at (a, h, k, d). -/
theorem ridx_v18_ix (a : Fin 1) (h : Fin 8) (i : Fin 2048) (d : Fin 64) (k : Fin 2048) :
    Read.ridx_main_v18 (ix4 a h i d) k = ix4 a h k d :=
  funext fun c => Fin.ext (by match c with | ⟨0, _⟩ => rfl | ⟨1, _⟩ => rfl | ⟨2, _⟩ => rfl | ⟨3, _⟩ => rfl)

/-- The exponential of the score less the row maximum is the specification's unnormalised weight. -/
theorem expo_stage (x0 x1 : (⟨S1x8x2048x64, .f32⟩ : BufTy).Contents (Elt Ideal)) (x3 : (⟨S1x8x2048x2048, .f32⟩ : BufTy).Contents (Elt Ideal))
    (x4 : (⟨S1x8x2048x2048, .i32⟩ : BufTy).Contents (Elt Ideal)) (a : Fin 1) (h : Fin 8) (i j : Fin 2048) :
    Read.val_main_v13 (F := Ideal) x0 x1 x3 x4 (ix4 a h i j)
      = expo (qrow x0 h i) (hmat x1 h) (brow x3 h i) (mrow x4 h i) j := by
  unfold expo
  rw [Read.val_main_v13_apply, Read.val_main_v12_apply, Read.val_main_v11_apply, Read.val_main_v10_apply, bcast_max_ix,
    max_stage, score_stage, Ideal.hostUnary_exp_def, Ideal.subf_def]

/-- The sum of the row's exponentials, started from zero, is the specification's normaliser. -/
theorem sum_stage (x0 x1 : (⟨S1x8x2048x64, .f32⟩ : BufTy).Contents (Elt Ideal)) (x3 : (⟨S1x8x2048x2048, .f32⟩ : BufTy).Contents (Elt Ideal))
    (x4 : (⟨S1x8x2048x2048, .i32⟩ : BufTy).Contents (Elt Ideal)) (a : Fin 1) (h : Fin 8) (i : Fin 2048) :
    Read.val_main_v14 (F := Ideal) x0 x1 x3 x4 (ix3 a h i)
      = rowSum (qrow x0 h i) (hmat x1 h) (brow x3 h i) (mrow x4 h i) := by
  unfold rowSum
  rw [Read.val_main_v14_apply, Read.val_main_cst_3_apply, Ideal.ofBits_def, zero_add32]
  exact Finset.sum_congr rfl fun k _ => by rw [idx_v14_ix, expo_stage]

/-- The quotient of the exponential by the row sum is the specification's weight. -/
theorem weights_stage (x0 x1 : (⟨S1x8x2048x64, .f32⟩ : BufTy).Contents (Elt Ideal)) (x3 : (⟨S1x8x2048x2048, .f32⟩ : BufTy).Contents (Elt Ideal))
    (x4 : (⟨S1x8x2048x2048, .i32⟩ : BufTy).Contents (Elt Ideal)) (a : Fin 1) (h : Fin 8) (i j : Fin 2048) :
    Read.val_main_v17 (F := Ideal) x0 x1 x3 x4 (ix4 a h i j)
      = prob (qrow x0 h i) (hmat x1 h) (brow x3 h i) (mrow x4 h i) j := by
  unfold prob
  rw [Read.val_main_v17_apply, Read.val_main_v16_apply, Read.val_main_v15_apply, bcast_sum_ix, sum_stage, expo_stage,
    Ideal.hostDivf_def]

/-- The reference's weights array is the specification's. -/
theorem weights_eq (x0 x1 : (⟨S1x8x2048x64, .f32⟩ : BufTy).Contents (Elt Ideal)) (x3 : (⟨S1x8x2048x2048, .f32⟩ : BufTy).Contents (Elt Ideal))
    (x4 : (⟨S1x8x2048x2048, .i32⟩ : BufTy).Contents (Elt Ideal)) :
    Cert.ReferenceIdeal.Read.val_main_v17 (F := Ideal) x0 x1 x3 x4 = attnP x0 x1 x3 x4 := by
  funext y
  obtain ⟨a, h, i, j, rfl⟩ : ∃ (a : Fin 1) (h : Fin 8) (i j : Fin 2048), y = ix4 a h i j := ⟨y 0, y 1, y 2, y 3, eq_ix4 y⟩
  rw [attnP_apply]
  exact weights_stage x0 x1 x3 x4 a h i j

/-- The reference's output array is the specification's. -/
theorem output_eq (x0 x1 x2 : (⟨S1x8x2048x64, .f32⟩ : BufTy).Contents (Elt Ideal)) (x3 : (⟨S1x8x2048x2048, .f32⟩ : BufTy).Contents (Elt Ideal))
    (x4 : (⟨S1x8x2048x2048, .i32⟩ : BufTy).Contents (Elt Ideal)) :
    Cert.ReferenceIdeal.Read.val_main_v18 (F := Ideal) x0 x1 x2 x3 x4 = attnO x0 x1 x2 x3 x4 := by
  funext y
  obtain ⟨a, h, i, d, rfl⟩ : ∃ (a : Fin 1) (h : Fin 8) (i : Fin 2048) (d : Fin 64), y = ix4 a h i d := ⟨y 0, y 1, y 2, y 3, eq_ix4 y⟩
  obtain rfl : a = 0 := Subsingleton.elim _ _
  rw [attnO_apply, Read.val_main_v18_apply]
  unfold out
  refine Finset.sum_congr rfl fun k _ => ?_
  rw [lidx_v18_ix, ridx_v18_ix, weights_stage]

end Cert.ReferenceIdeal.RefValue

end
-- ==== Proof.KernelBody.lean ====
/-
  The kernel body's arithmetic read at an index, over the extended reals. The body loads one block of 512 query
  rows of a head (`x0`), the head's keys (`x1`) and values (`x2`), and the rows' bias (`x3`) and mask (`x4`); each
  stored weight is the row's reciprocal-normalised softmax weight, and each stored output entry the weights
  applied to the values.
-/
import proofs.«413361_j67276367725148_3_alg».proof.Proof.Gen.KernelIdeal.Skeleton
import proofs.«413361_j67276367725148_3_alg».proof.Proof.Softmax
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.Softmax

/-! ## The column forms of a shape cast and a broadcast -/

/-- A vector of `a` entries cast to an `a × 1` column reads, at (i, u), entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the lanes of a row -/

/-- The reduced index r with lane k put back is (r, k). -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The lane sum of row r of a 512 × 2048 block is the sum of the row's 2048 entries. -/
theorem laneSum_apply (src : FVec Ideal S512x2048 .f32) (h : S512x2048.Reduces [1] S512) (hφ : FKind.Formats .f32)
    (hacc : (0x00000000#32 : BitVec FTy.f32.bits) = FKind.add.neutral .f32 hφ) (r : Fin 512) :
    multiReduction .add [1] S512 src 0x00000000#32 h hφ hacc (ix1 r) = ∑ k : Fin 2048, src (ix2 r k) :=
  (Ideal.multiReduction_add_single src _ h hφ hacc (ix1 r)).trans
    (Finset.sum_congr rfl fun k _ => congrArg src (lift_row h r k))

/-- The lane maximum of row r of a 512 × 2048 block is the fold of max, from −∞, over the row's 2048 entries. -/
theorem laneMax_apply (src : FVec Ideal S512x2048 .f32) (h : S512x2048.Reduces [1] S512) (hφ : FKind.Formats .f32)
    (hacc : (0xFF800000#32 : BitVec FTy.f32.bits) = FKind.maximumf.neutral .f32 hφ) (r : Fin 512) :
    multiReduction .maximumf [1] S512 src 0xFF800000#32 h hφ hacc (ix1 r)
      = (Finset.univ : Finset (Fin 2048)).fold max negInf (fun k => src (ix2 r k)) :=
  (Ideal.multiReduction_maximumf_single src _ h hφ hacc (ix1 r)).trans
    (congrArg (fun f => Finset.fold max negInf f (Finset.univ : Finset (Fin 2048)))
      (funext fun k => congrArg src (lift_row h r k)))

/-! ## The two products read at an index -/

/-- The first product's left index keeps the output row … -/
theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
/-- … and runs over the contracted feature. -/
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
/-- Its right index takes the output column as the key row … -/
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
/-- … and runs over the contracted feature. -/
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Queries times keys, both contracted over their 64 features, into the zero block: entry (r, j) is Σ_d a(r, d) · b(j, d). -/
theorem qk_apply (a : FVec Ideal S512x64 .bf16) (b : FVec Ideal S2048x64 .bf16) (r : Fin 512) (j : Fin 2048) :
    matmul dot_S512x64_S2048x64_S512x2048_1_1_0_0_n_n none a b (constant (F := Ideal) S512x2048 .f32 0x00000000#32) (ix2 r j)
      = ∑ d : Fin 64, a (ix2 r d) * b (ix2 j d) := by
  refine (Ideal.matmul_constant_zero_apply dot_S512x64_S2048x64_S512x2048_1_1_0_0_n_n none a b (ix2 r j)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r j) ((contrEquiv1 dot_S512x64_S2048x64_S512x2048_1_1_0_0_n_n 64 rfl rfl).symm k) = ix2 r k := funext fun c => Fin.ext (by
    match c with
    | ⟨0, _⟩ => exact lhs_qk_0 _ _
    | ⟨1, _⟩ => exact (lhs_qk_1 _ _).trans hk)
  have er : dot_S512x64_S2048x64_S512x2048_1_1_0_0_n_n.rhsIdx (ix2 r j) ((contrEquiv1 dot_S512x64_S2048x64_S512x2048_1_1_0_0_n_n 64 rfl rfl).symm k) = ix2 j k := funext fun c => Fin.ext (by
    match c with
    | ⟨0, _⟩ => exact rhs_qk_0 _ _
    | ⟨1, _⟩ => exact (rhs_qk_1 _ _).trans hk)
  rw [el, er]

/-- The second product's left index keeps the output row … -/
theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
/-- … and runs over the contracted key. -/
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
/-- Its right index runs over the contracted key … -/
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- … and keeps the output column. -/
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights times values, contracted over the 2048 keys, into the zero block: entry (r, d) is Σ_j a(r, j) · b(j, d). -/
theorem pv_apply (a : FVec Ideal S512x2048 .bf16) (b : FVec Ideal S2048x64 .bf16) (r : Fin 512) (d : Fin 64) :
    matmul dot_S512x2048_S2048x64_S512x64_1_0_0_1_n_n none a b (constant (F := Ideal) S512x64 .f32 0x00000000#32) (ix2 r d)
      = ∑ j : Fin 2048, a (ix2 r j) * b (ix2 j d) := by
  refine (Ideal.matmul_constant_zero_apply dot_S512x2048_S2048x64_S512x64_1_0_0_1_n_n none a b (ix2 r d)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun c => Fin.ext (by
    match c with
    | ⟨0, _⟩ => exact lhs_pv_0 _ _
    | ⟨1, _⟩ => exact (lhs_pv_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun c => Fin.ext (by
    match c with
    | ⟨0, _⟩ => exact (rhs_pv_0 _ _).trans hk
    | ⟨1, _⟩ => exact rhs_pv_1 _ _)
  rw [el, er]

/-! ## The body's stages at an index -/

/-- The block of masked, biased scores: entry (r, j) is the score of block row r, scaled by 0.125, against key j. -/
theorem scoreBlock_apply (x0 : Vec Ideal S1x512x64 .bf16) (x1 : Vec Ideal S1x2048x64 .bf16) (x3 : Vec Ideal S1x512x2048 .f32)
    (x4 : Vec Ideal S1x512x2048 .i32) (r : Fin 512) (j : Fin 2048) :
    select (cmpi .eq (shapeCast S512x2048 x4 shapeCasts_S1x512x2048_S512x2048) (broadcast S512x2048 0#32))
        (broadcast S512x2048 (Scalar.ofBits (F := Ideal) .f32 0xCE6E6B28#32))
        (mulf
          (matmul dot_S512x64_S2048x64_S512x2048_1_1_0_0_n_n none
            (mulf (shapeCast S512x64 x0 shapeCasts_S1x512x64_S512x64 : FVec Ideal S512x64 .bf16) (broadcast S512x64 (Scalar.ofBits (F := Ideal) .bf16 0x3E00#16)))
            (shapeCast S2048x64 x1 shapeCasts_S1x2048x64_S2048x64 : FVec Ideal S2048x64 .bf16)
            (constant (F := Ideal) S512x2048 .f32 0x00000000#32))
          (shapeCast S512x2048 x3 shapeCasts_S1x512x2048_S512x2048 : FVec Ideal S512x2048 .f32)) (ix2 r j)
      = score (fun d => (x0 (ix3 (0 : Fin 1) r d) : EReal) * eighth) (fun j' d => (x1 (ix3 (0 : Fin 1) j' d) : EReal))
          (fun j' => (x3 (ix3 (0 : Fin 1) r j') : EReal)) (fun j' => (x4 (ix3 (0 : Fin 1) r j') : BitVec 32)) j := by
  unfold score
  have hq : matmul dot_S512x64_S2048x64_S512x2048_1_1_0_0_n_n none
        (mulf (shapeCast S512x64 x0 shapeCasts_S1x512x64_S512x64 : FVec Ideal S512x64 .bf16) (broadcast S512x64 (Scalar.ofBits (F := Ideal) .bf16 0x3E00#16)))
        (shapeCast S2048x64 x1 shapeCasts_S1x2048x64_S2048x64 : FVec Ideal S2048x64 .bf16)
        (constant (F := Ideal) S512x2048 .f32 0x00000000#32) (ix2 r j)
      = ∑ d : Fin 64, ((x0 (ix3 (0 : Fin 1) r d) : EReal) * eighth) * (x1 (ix3 (0 : Fin 1) j d) : EReal) :=
    (qk_apply _ _ r j).trans (Finset.sum_congr rfl fun d _ =>
      congrArg₂ (fun a b : EReal => a * eighth * b)
        (shapeCast_1ab_ab_apply x0 shapeCasts_S1x512x64_S512x64 r d)
        (shapeCast_1ab_ab_apply x1 shapeCasts_S1x2048x64_S2048x64 j d))
  have hb : shapeCast S512x2048 x3 shapeCasts_S1x512x2048_S512x2048 (ix2 r j) = x3 (ix3 (0 : Fin 1) r j) :=
    shapeCast_1ab_ab_apply x3 shapeCasts_S1x512x2048_S512x2048 r j
  have hm : shapeCast S512x2048 x4 shapeCasts_S1x512x2048_S512x2048 (ix2 r j) = x4 (ix3 (0 : Fin 1) r j) :=
    shapeCast_1ab_ab_apply x4 shapeCasts_S1x512x2048_S512x2048 r j
  exact congrArg₂ (fun (w : BitVec 32) (t : EReal) => Scalar.select (IntOp.cmpi .eq w 0#32) fill t) hm
    (congrArg₂ (fun a b : EReal => a * b) hq hb)

/-- A block minus its rows' lane maxima, exponentiated: entry (r, j) is exp (s(r, j) − max_k s(r, k)). -/
theorem centered_apply (s : FVec Ideal S512x2048 .f32) (r : Fin 512) (sc : Fin 2048 → EReal)
    (hs : ∀ k : Fin 2048, s (ix2 r k) = sc k) (j : Fin 2048) :
    exp (subf s (broadcastTo S512x2048 (shapeCast S512x1 (multiReduction .maximumf [1] S512 s 0xFF800000#32 reduces_S512x2048_S512 (.inl rfl) rfl) shapeCasts_S512_S512x1) broadcasts_S512x1_S512x2048)) (ix2 r j)
      = Ideal.exp (sc j - (Finset.univ : Finset (Fin 2048)).fold max negInf sc) := by
  have hM : (broadcastTo S512x2048 (shapeCast S512x1 (multiReduction .maximumf [1] S512 s 0xFF800000#32 reduces_S512x2048_S512 (.inl rfl) rfl) shapeCasts_S512_S512x1) broadcasts_S512x1_S512x2048) (ix2 r j) = (Finset.univ : Finset (Fin 2048)).fold max negInf sc :=
    (broadcastTo_a1_ab_apply _ _ r j).trans ((shapeCast_a_a1_apply _ _ r 0).trans ((laneMax_apply s _ _ _ r).trans
      (congrArg (fun f => Finset.fold max negInf f (Finset.univ : Finset (Fin 2048))) (funext hs))))
  exact congrArg₂ (fun a b : EReal => Ideal.exp (a - b)) (hs j) hM

/-- A block times the reciprocals of its rows' lane sums: entry (r, j) is e(r, j) · (1 / Σ_k e(r, k)). -/
theorem normalised_apply (e : FVec Ideal S512x2048 .f32) (r : Fin 512) (ex : Fin 2048 → EReal)
    (he : ∀ k : Fin 2048, e (ix2 r k) = ex k) (j : Fin 2048) :
    mulf e (broadcastTo S512x2048
        (divf (broadcast S512x1 (Scalar.ofBits (F := Ideal) .f32 0x3F800000#32))
          (shapeCast S512x1 (multiReduction .add [1] S512 e 0x00000000#32 reduces_S512x2048_S512 (.inl rfl) rfl) shapeCasts_S512_S512x1))
        broadcasts_S512x1_S512x2048) (ix2 r j)
      = ex j * Ideal.div one32 (∑ k : Fin 2048, ex k) := by
  have hL : shapeCast S512x1 (multiReduction .add [1] S512 e 0x00000000#32 reduces_S512x2048_S512 (.inl rfl) rfl) shapeCasts_S512_S512x1
        (ix2 r (0 : Fin 1)) = ∑ k : Fin 2048, ex k :=
    (shapeCast_a_a1_apply _ _ r 0).trans ((laneSum_apply e _ _ _ r).trans (Finset.sum_congr rfl fun k _ => he k))
  have hR : (broadcastTo S512x2048
        (divf (broadcast S512x1 (Scalar.ofBits (F := Ideal) .f32 0x3F800000#32))
          (shapeCast S512x1 (multiReduction .add [1] S512 e 0x00000000#32 reduces_S512x2048_S512 (.inl rfl) rfl) shapeCasts_S512_S512x1))
        broadcasts_S512x1_S512x2048) (ix2 r j) = Ideal.div one32 (∑ k : Fin 2048, ex k) :=
    (broadcastTo_a1_ab_apply _ _ r j).trans (congrArg (fun l : EReal => Ideal.div one32 l) hL)
  exact congrArg₂ (fun a b : EReal => a * b) (he j) hR

/-! ## The payloads -/

/-- The weight the body computes for block row r and key j: the reciprocal-normalised weight of key j in the row whose
    scaled query is row r of the query block times 0.125. -/
theorem weights_apply (x0 : Vec Ideal S1x512x64 .bf16) (x1 : Vec Ideal S1x2048x64 .bf16) (x3 : Vec Ideal S1x512x2048 .f32)
    (x4 : Vec Ideal S1x512x2048 .i32) (r : Fin 512) (j : Fin 2048) :
    k0_pay2 (F := Ideal) x0 x1 x3 x4 (ix2 r j)
      = probK (fun d => (x0 (ix3 (0 : Fin 1) r d) : EReal) * eighth) (fun j' d => (x1 (ix3 (0 : Fin 1) j' d) : EReal))
          (fun j' => (x3 (ix3 (0 : Fin 1) r j') : EReal)) (fun j' => (x4 (ix3 (0 : Fin 1) r j') : BitVec 32)) j := by
  unfold k0_pay2 probK rowSum expo rowMax
  exact normalised_apply _ r _ (fun k => centered_apply _ r _ (fun k' => scoreBlock_apply x0 x1 x3 x4 r k') k) j

/-- The stored weights block is those weights with a leading unit axis. -/
theorem weights_block_apply (x0 : Vec Ideal S1x512x64 .bf16) (x1 : Vec Ideal S1x2048x64 .bf16) (x3 : Vec Ideal S1x512x2048 .f32)
    (x4 : Vec Ideal S1x512x2048 .i32) (r : Fin 512) (j : Fin 2048) :
    k0_pay3 (F := Ideal) x0 x1 x3 x4 (ix3 (0 : Fin 1) r j) = k0_pay2 (F := Ideal) x0 x1 x3 x4 (ix2 r j) := by
  unfold k0_pay3
  exact shapeCast_ab_1ab_apply (k0_pay2 (F := Ideal) x0 x1 x3 x4) shapeCasts_S512x2048_S1x512x2048 (0 : Fin 1) r j

/-- The values as the body passes them to the second product: the block without its leading unit axis. -/
theorem values_apply (x2 : Vec Ideal S1x2048x64 .bf16) (j : Fin 2048) (d : Fin 64) :
    k0_pay4 (F := Ideal) x2 (ix2 j d) = x2 (ix3 (0 : Fin 1) j d) := by
  unfold k0_pay4
  exact shapeCast_1ab_ab_apply x2 shapeCasts_S1x2048x64_S2048x64 j d

/-- The stored output block: entry (0, r, d) is the sum over keys of weight (r, j) times value (j, d). -/
theorem output_block_apply (p : FVec Ideal S512x2048 .f32) (vv : FVec Ideal S2048x64 .bf16) (r : Fin 512) (d : Fin 64) :
    k0_pay1 (F := Ideal) p vv (ix3 (0 : Fin 1) r d) = ∑ j : Fin 2048, (p (ix2 r j) : EReal) * (vv (ix2 j d) : EReal) := by
  unfold k0_pay1
  refine (shapeCast_ab_1ab_apply _ shapeCasts_S512x64_S1x512x64 (0 : Fin 1) r d).trans ?_
  exact pv_apply (truncf .bf16 p bitsLt_bf16_f32) vv r d

end Cert.KernelIdeal.Body

end
-- ==== Proof.KernelValue.lean ====
/-
  The idealized kernel program's two results as whole arrays. The program reshapes q, k, v, the bias and the mask
  to [8, 2048, ·] (a change of float format in between is the identity here), runs the body once per (head, block
  of 512 query rows), and reshapes the two outputs back to [1, 8, 2048, ·]. Point t = (h, b) of the grid reads rows
  512 b … 512 b + 511 of head h of q, the bias and the mask, and all of head h of k and v, and writes the same rows of
  head h of both outputs; the 32 points' blocks tile both output arrays.
-/
import proofs.«413361_j67276367725148_3_alg».proof.Proof.Gen.KernelIdeal.Frame
import proofs.«413361_j67276367725148_3_alg».proof.Proof.KernelBody
import proofs.«413361_j67276367725148_3_alg».proof.Proof.Softmax
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Arrays

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen Cert.Softmax

variable (m : (ℓ : Loc nD τ sig) → Buf (Elt Ideal) ℓ) (ρ : Dev nD → PrngReg)

/-! ## The arrays the region finds -/

/-- q reshaped to [8, 2048, 64], as the region finds it. -/
abbrev qArr (c : Dev nD) : S8x2048x64.Idx → EReal := V m c main_v1
/-- k reshaped. -/
abbrev kArr (c : Dev nD) : S8x2048x64.Idx → EReal := V m c main_v3
/-- v reshaped. -/
abbrev vArr (c : Dev nD) : S8x2048x64.Idx → EReal := V m c main_v5
/-- The bias reshaped to [8, 2048, 2048]. -/
abbrev bArr (c : Dev nD) : S8x2048x2048.Idx → EReal := V m c main_v6
/-- The mask reshaped. -/
abbrev mArr (c : Dev nD) : S8x2048x2048.Idx → BitVec 32 := V m c main_v7

/-- Entry (h, i, d) of the reshaped q is entry (0, h, i, d) of q. -/
theorem qArr_apply (c : Dev nD) (h : Fin 8) (i : Fin 2048) (d : Fin 64) :
    qArr m c (ix3 h i d) = (m ((c : Thread nD τ).loc main_arg0) : S1x8x2048x64.Idx → EReal) (ix4 (0 : Fin 1) h i d) := by
  have e : V m c main_v1
      = truncf (F := Ideal) .bf16 (shapeCast S8x2048x64 (m ((c : Thread nD τ).loc main_arg0)) shapeCasts_S1x8x2048x64_S8x2048x64) bitsLt_bf16_f32 := by
    show StableHlo.after hostOps0 (fun b => m (c, b)) (Proc.devRef .tc main_v1) = _
    after_results
    rfl
  show (V m c main_v1 : S8x2048x64.Idx → EReal) (ix3 h i d) = _
  rw [e]
  exact shapeCast_1abc_abc_apply _ _ h i d

/-- Entry (h, j, d) of the reshaped k is entry (0, h, j, d) of k. -/
theorem kArr_apply (c : Dev nD) (h : Fin 8) (j : Fin 2048) (d : Fin 64) :
    kArr m c (ix3 h j d) = (m ((c : Thread nD τ).loc main_arg1) : S1x8x2048x64.Idx → EReal) (ix4 (0 : Fin 1) h j d) := by
  have e : V m c main_v3
      = truncf (F := Ideal) .bf16 (shapeCast S8x2048x64 (m ((c : Thread nD τ).loc main_arg1)) shapeCasts_S1x8x2048x64_S8x2048x64) bitsLt_bf16_f32 := by
    show StableHlo.after hostOps0 (fun b => m (c, b)) (Proc.devRef .tc main_v3) = _
    after_results
    rfl
  show (V m c main_v3 : S8x2048x64.Idx → EReal) (ix3 h j d) = _
  rw [e]
  exact shapeCast_1abc_abc_apply _ _ h j d

/-- Entry (h, j, d) of the reshaped v is entry (0, h, j, d) of v. -/
theorem vArr_apply (c : Dev nD) (h : Fin 8) (j : Fin 2048) (d : Fin 64) :
    vArr m c (ix3 h j d) = (m ((c : Thread nD τ).loc main_arg2) : S1x8x2048x64.Idx → EReal) (ix4 (0 : Fin 1) h j d) := by
  have e : V m c main_v5
      = truncf (F := Ideal) .bf16 (shapeCast S8x2048x64 (m ((c : Thread nD τ).loc main_arg2)) shapeCasts_S1x8x2048x64_S8x2048x64) bitsLt_bf16_f32 := by
    show StableHlo.after hostOps0 (fun b => m (c, b)) (Proc.devRef .tc main_v5) = _
    after_results
    rfl
  show (V m c main_v5 : S8x2048x64.Idx → EReal) (ix3 h j d) = _
  rw [e]
  exact shapeCast_1abc_abc_apply _ _ h j d

/-- Entry (h, i, j) of the reshaped bias is entry (0, h, i, j) of the bias. -/
theorem bArr_apply (c : Dev nD) (h : Fin 8) (i j : Fin 2048) :
    bArr m c (ix3 h i j) = (m ((c : Thread nD τ).loc main_arg3) : S1x8x2048x2048.Idx → EReal) (ix4 (0 : Fin 1) h i j) := by
  have e : V m c main_v6
      = shapeCast S8x2048x2048 (m ((c : Thread nD τ).loc main_arg3)) shapeCasts_S1x8x2048x2048_S8x2048x2048 := by
    show StableHlo.after hostOps0 (fun b => m (c, b)) (Proc.devRef .tc main_v6) = _
    after_results
    rfl
  show (V m c main_v6 : S8x2048x2048.Idx → EReal) (ix3 h i j) = _
  rw [e]
  exact shapeCast_1abc_abc_apply _ _ h i j

/-- Entry (h, i, j) of the reshaped mask is entry (0, h, i, j) of the mask. -/
theorem mArr_apply (c : Dev nD) (h : Fin 8) (i j : Fin 2048) :
    mArr m c (ix3 h i j) = (m ((c : Thread nD τ).loc main_arg4) : S1x8x2048x2048.Idx → BitVec 32) (ix4 (0 : Fin 1) h i j) := by
  have e : V m c main_v7
      = shapeCast S8x2048x2048 (m ((c : Thread nD τ).loc main_arg4)) shapeCasts_S1x8x2048x2048_S8x2048x2048 := by
    show StableHlo.after hostOps0 (fun b => m (c, b)) (Proc.devRef .tc main_v7) = _
    after_results
    rfl
  show (V m c main_v7 : S8x2048x2048.Idx → BitVec 32) (ix3 h i j) = _
  rw [e]
  exact shapeCast_1abc_abc_apply _ _ h i j

/-! ## Which block each window holds at a point -/

/-- The printed index maps, decided over the 32 points: q, the bias, the mask and both outputs move together
    (head, row block, 0); k and v sit at (head, 0, 0); the head is below 8 and the row block below 4. -/
theorem idx_facts : ∀ t : Fin cfg0.N,
    (win0_0.index t 0 = win0_6.index t 0 ∧ win0_0.index t 1 = win0_6.index t 1 ∧ win0_0.index t 2 = 0)
    ∧ (win0_1.index t 0 = win0_6.index t 0 ∧ win0_1.index t 1 = 0 ∧ win0_1.index t 2 = 0)
    ∧ (win0_2.index t 0 = win0_6.index t 0 ∧ win0_2.index t 1 = 0 ∧ win0_2.index t 2 = 0)
    ∧ (win0_3.index t 0 = win0_6.index t 0 ∧ win0_3.index t 1 = win0_6.index t 1 ∧ win0_3.index t 2 = 0)
    ∧ (win0_4.index t 0 = win0_6.index t 0 ∧ win0_4.index t 1 = win0_6.index t 1 ∧ win0_4.index t 2 = 0)
    ∧ (win0_5.index t 0 = win0_6.index t 0 ∧ win0_5.index t 1 = win0_6.index t 1 ∧ win0_5.index t 2 = 0)
    ∧ (win0_6.index t 0 < 8 ∧ win0_6.index t 1 < 4 ∧ win0_6.index t 2 = 0) :=
  (by decide +kernel : ∀ t : Fin grid0.N, _)

/-- Every (head, row block) is some point's. -/
theorem idx_onto : ∀ (h : Fin 8) (b : Fin 4), ∃ t : Fin cfg0.N, win0_6.index t 0 = h.val ∧ win0_6.index t 1 = b.val :=
  (by decide +kernel : ∀ (h : Fin 8) (b : Fin 4), ∃ t : Fin grid0.N, win0_6.index t 0 = h.val ∧ win0_6.index t 1 = b.val)

/-- The head of point t. -/
def hd (t : Fin cfg0.N) : Fin 8 := ⟨win0_6.index t 0, (idx_facts t).2.2.2.2.2.2.1⟩
/-- Row r of point t's block of query rows, as a row of the head. -/
def rw_ (t : Fin cfg0.N) (r : Fin 512) : Fin 2048 :=
  ⟨win0_6.index t 1 * 512 + r.val, by have := (idx_facts t).2.2.2.2.2.2.2.1; have := r.isLt; omega⟩

/-- The q block at point t: row r, feature d is the reshaped q at (head, row, d). -/
theorem qblk_apply (c : Dev nD) (t : Fin cfg0.N) (r : Fin 512) (d : Fin 64) :
    (iblk m c 0 t : S1x512x64.Idx → EReal) (ix3 (0 : Fin 1) r d) = qArr m c (ix3 (hd t) (rw_ t r) d) := by
  obtain ⟨⟨e0, e1, e2⟩, -⟩ := idx_facts t
  unfold iblk
  rw [View.read_apply]
  show V m c main_v1 _ = V m c main_v1 _
  refine congrArg (V m c main_v1) (funext fun a => Fin.ext ?_)
  match a with
  | ⟨0, _⟩ => show win0_0.index t 0 * 1 + 1 * 0 = win0_6.index t 0; omega
  | ⟨1, _⟩ => show win0_0.index t 1 * 512 + 1 * r.val = win0_6.index t 1 * 512 + r.val; omega
  | ⟨2, _⟩ => show win0_0.index t 2 * 64 + 1 * d.val = d.val; omega

/-- The k block at point t: key j, feature d is the reshaped k at (head, j, d). -/
theorem kblk_apply (c : Dev nD) (t : Fin cfg0.N) (j : Fin 2048) (d : Fin 64) :
    (iblk m c 1 t : S1x2048x64.Idx → EReal) (ix3 (0 : Fin 1) j d) = kArr m c (ix3 (hd t) j d) := by
  obtain ⟨-, ⟨e0, e1, e2⟩, -⟩ := idx_facts t
  unfold iblk
  rw [View.read_apply]
  show V m c main_v3 _ = V m c main_v3 _
  refine congrArg (V m c main_v3) (funext fun a => Fin.ext ?_)
  match a with
  | ⟨0, _⟩ => show win0_1.index t 0 * 1 + 1 * 0 = win0_6.index t 0; omega
  | ⟨1, _⟩ => show win0_1.index t 1 * 2048 + 1 * j.val = j.val; omega
  | ⟨2, _⟩ => show win0_1.index t 2 * 64 + 1 * d.val = d.val; omega

/-- The v block at point t: key j, feature d is the reshaped v at (head, j, d). -/
theorem vblk_apply (c : Dev nD) (t : Fin cfg0.N) (j : Fin 2048) (d : Fin 64) :
    (iblk m c 2 t : S1x2048x64.Idx → EReal) (ix3 (0 : Fin 1) j d) = vArr m c (ix3 (hd t) j d) := by
  obtain ⟨-, -, ⟨e0, e1, e2⟩, -⟩ := idx_facts t
  unfold iblk
  rw [View.read_apply]
  show V m c main_v5 _ = V m c main_v5 _
  refine congrArg (V m c main_v5) (funext fun a => Fin.ext ?_)
  match a with
  | ⟨0, _⟩ => show win0_2.index t 0 * 1 + 1 * 0 = win0_6.index t 0; omega
  | ⟨1, _⟩ => show win0_2.index t 1 * 2048 + 1 * j.val = j.val; omega
  | ⟨2, _⟩ => show win0_2.index t 2 * 64 + 1 * d.val = d.val; omega

/-- The bias block at point t: row r, key j is the reshaped bias at (head, row, j). -/
theorem bblk_apply (c : Dev nD) (t : Fin cfg0.N) (r : Fin 512) (j : Fin 2048) :
    (iblk m c 3 t : S1x512x2048.Idx → EReal) (ix3 (0 : Fin 1) r j) = bArr m c (ix3 (hd t) (rw_ t r) j) := by
  obtain ⟨-, -, -, ⟨e0, e1, e2⟩, -⟩ := idx_facts t
  unfold iblk
  rw [View.read_apply]
  show V m c main_v6 _ = V m c main_v6 _
  refine congrArg (V m c main_v6) (funext fun a => Fin.ext ?_)
  match a with
  | ⟨0, _⟩ => show win0_3.index t 0 * 1 + 1 * 0 = win0_6.index t 0; omega
  | ⟨1, _⟩ => show win0_3.index t 1 * 512 + 1 * r.val = win0_6.index t 1 * 512 + r.val; omega
  | ⟨2, _⟩ => show win0_3.index t 2 * 2048 + 1 * j.val = j.val; omega

/-- The mask block at point t: row r, key j is the reshaped mask at (head, row, j). -/
theorem mblk_apply (c : Dev nD) (t : Fin cfg0.N) (r : Fin 512) (j : Fin 2048) :
    (iblk m c 4 t : S1x512x2048.Idx → BitVec 32) (ix3 (0 : Fin 1) r j) = mArr m c (ix3 (hd t) (rw_ t r) j) := by
  obtain ⟨-, -, -, -, ⟨e0, e1, e2⟩, -⟩ := idx_facts t
  unfold iblk
  rw [View.read_apply]
  show V m c main_v7 _ = V m c main_v7 _
  refine congrArg (V m c main_v7) (funext fun a => Fin.ext ?_)
  match a with
  | ⟨0, _⟩ => show win0_4.index t 0 * 1 + 1 * 0 = win0_6.index t 0; omega
  | ⟨1, _⟩ => show win0_4.index t 1 * 512 + 1 * r.val = win0_6.index t 1 * 512 + r.val; omega
  | ⟨2, _⟩ => show win0_4.index t 2 * 2048 + 1 * j.val = j.val; omega

/-! ## The two output arrays over the reshaped inputs -/

section Spec3

variable (aq ak av : S8x2048x64.Idx → EReal) (ab : S8x2048x2048.Idx → EReal) (am : S8x2048x2048.Idx → BitVec 32)

/-- Row i of head h over the reshaped arrays: its scaled query, -/
abbrev qs3 (h : Fin 8) (i : Fin 2048) : Fin 64 → EReal := fun d => aq (ix3 h i d) * eighth
/-- a head as a 2048 × 64 matrix, -/
abbrev mat3 (a : S8x2048x64.Idx → EReal) (h : Fin 8) : Fin 2048 → Fin 64 → EReal := fun j d => a (ix3 h j d)
/-- its bias -/
abbrev bias3 (h : Fin 8) (i : Fin 2048) : Fin 2048 → EReal := fun j => ab (ix3 h i j)
/-- and its mask. -/
abbrev mask3 (h : Fin 8) (i : Fin 2048) : Fin 2048 → BitVec 32 := fun j => am (ix3 h i j)

/-- The weights array [8, 2048, 2048] the kernel writes: reciprocal-normalised weights, row by row. -/
def weights3 : S8x2048x2048.Idx → EReal := fun y =>
  probK (qs3 aq (y 0) (y 1)) (mat3 ak (y 0)) (bias3 ab (y 0) (y 1)) (mask3 am (y 0) (y 1)) (y 2)

/-- The output array [8, 2048, 64] the kernel writes. -/
def output3 : S8x2048x64.Idx → EReal := fun y =>
  outK (qs3 aq (y 0) (y 1)) (mat3 ak (y 0)) (bias3 ab (y 0) (y 1)) (mask3 am (y 0) (y 1)) (mat3 av (y 0)) (y 2)

theorem weights3_apply (h : Fin 8) (i j : Fin 2048) :
    weights3 aq ak ab am (ix3 h i j) = probK (qs3 aq h i) (mat3 ak h) (bias3 ab h i) (mask3 am h i) j := rfl

theorem output3_apply (h : Fin 8) (i : Fin 2048) (d : Fin 64) :
    output3 aq ak av ab am (ix3 h i d) = outK (qs3 aq h i) (mat3 ak h) (bias3 ab h i) (mask3 am h i) (mat3 av h) d := rfl

end Spec3

theorem hz3 : (![0, 0, 0] : Fin 3 → Nat) = fun _ => 0 := funext fun a => by fin_cases a <;> rfl

/-- Equal row data give equal weights. -/
theorem probK_congr {qs qs' : Fin 64 → EReal} {km km' : Fin 2048 → Fin 64 → EReal} {bias bias' : Fin 2048 → EReal}
    {msk msk' : Fin 2048 → BitVec 32} (h0 : qs = qs') (h1 : km = km') (h2 : bias = bias') (h3 : msk = msk') (j : Fin 2048) :
    probK qs km bias msk j = probK qs' km' bias' msk' j := by
  subst h0 h1 h2 h3; rfl

/-- The five input blocks at point t, at their literal types. -/
abbrev qBlk (c : Dev nD) (t : Fin cfg0.N) : Vec Ideal S1x512x64 .bf16 := iblk m c 0 t
abbrev kBlk (c : Dev nD) (t : Fin cfg0.N) : Vec Ideal S1x2048x64 .bf16 := iblk m c 1 t
abbrev vBlk (c : Dev nD) (t : Fin cfg0.N) : Vec Ideal S1x2048x64 .bf16 := iblk m c 2 t
abbrev bBlk (c : Dev nD) (t : Fin cfg0.N) : Vec Ideal S1x512x2048 .f32 := iblk m c 3 t
abbrev mBlk (c : Dev nD) (t : Fin cfg0.N) : Vec Ideal S1x512x2048 .i32 := iblk m c 4 t

/-- The weights the body leaves for block row r at point t are the weights of row (head, row) over the reshaped arrays. -/
theorem point_weights (c : Dev nD) (t : Fin cfg0.N) (r : Fin 512) (j : Fin 2048) :
    k0_pay2 (F := Ideal) (qBlk m c t) (kBlk m c t) (bBlk m c t) (mBlk m c t) (ix2 r j)
      = probK (qs3 (qArr m c) (hd t) (rw_ t r)) (mat3 (kArr m c) (hd t)) (bias3 (bArr m c) (hd t) (rw_ t r)) (mask3 (mArr m c) (hd t) (rw_ t r)) j := by
  refine (Cert.KernelIdeal.Body.weights_apply (qBlk m c t) (kBlk m c t) (bBlk m c t) (mBlk m c t) r j).trans ?_
  exact probK_congr (funext fun d => congrArg (fun x : EReal => x * eighth) (qblk_apply m c t r d))
    (funext fun j' => funext fun d => kblk_apply m c t j' d) (funext fun j' => bblk_apply m c t r j')
    (funext fun j' => mblk_apply m c t r j') j

/-- What point t writes back to the weights array is block t of the weights over the reshaped arrays. -/
theorem flushed_weights (c : Dev nD) (t : Fin cfg0.N) :
    (dats m 0 c).flushed 6 t
      = ((cfg0.win 6).blk t).view.read (Elt Ideal) (weights3 (qArr m c) (kArr m c) (bArr m c) (mArr m c)) := by
  show (cfg0.win 6).cut (grid0.coords t) ((dats m 0 c).after 6 t) = _
  rw [after0_6]
  unfold out0_6
  rw [View.canon_unit_zero hz3]
  simp only [View.ld_unit_zero (S := S1x512x64) hz3, View.ld_unit_zero (S := S1x2048x64) hz3, View.ld_unit_zero (S := S1x512x2048) hz3]
  refine funext fun (y : S1x512x2048.Idx) => ?_
  obtain ⟨u, r, j, rfl⟩ : ∃ (u : Fin 1) (r : Fin 512) (j : Fin 2048), y = ix3 u r j := ⟨y 0, y 1, y 2, eq_ix3 y⟩
  obtain rfl : u = 0 := Subsingleton.elim _ _
  obtain ⟨-, -, -, -, -, -, ⟨-, -, e2⟩⟩ := idx_facts t
  have hemb : ((cfg0.win 6).blk t).view.emb (ix3 (0 : Fin 1) r j) = ix3 (hd t) (rw_ t r) j :=
    funext fun a => Fin.ext (by
      match a with
      | ⟨0, _⟩ => show win0_6.index t 0 * 1 + 1 * 0 = win0_6.index t 0; omega
      | ⟨1, _⟩ => show win0_6.index t 1 * 512 + 1 * r.val = win0_6.index t 1 * 512 + r.val; omega
      | ⟨2, _⟩ => show win0_6.index t 2 * 2048 + 1 * j.val = j.val; omega)
  show k0_pay3 (F := Ideal) (qBlk m c t) (kBlk m c t) (bBlk m c t) (mBlk m c t) (ix3 (0 : Fin 1) r j)
    = weights3 (qArr m c) (kArr m c) (bArr m c) (mArr m c) (((cfg0.win 6).blk t).view.emb (ix3 (0 : Fin 1) r j))
  rw [hemb, weights3_apply, Cert.KernelIdeal.Body.weights_block_apply]
  exact point_weights m c t r j

/-- The output entry the body leaves for block row r, feature d at point t is the output of row (head, row) over the
    reshaped arrays. -/
theorem point_output (c : Dev nD) (t : Fin cfg0.N) (r : Fin 512) (d : Fin 64) :
    k0_pay1 (F := Ideal) (k0_pay2 (F := Ideal) (qBlk m c t) (kBlk m c t) (bBlk m c t) (mBlk m c t)) (k0_pay4 (F := Ideal) (vBlk m c t))
        (ix3 (0 : Fin 1) r d)
      = outK (qs3 (qArr m c) (hd t) (rw_ t r)) (mat3 (kArr m c) (hd t)) (bias3 (bArr m c) (hd t) (rw_ t r)) (mask3 (mArr m c) (hd t) (rw_ t r))
          (mat3 (vArr m c) (hd t)) d := by
  refine (Cert.KernelIdeal.Body.output_block_apply _ _ r d).trans ?_
  unfold outK
  refine Finset.sum_congr rfl fun j _ => ?_
  exact congrArg₂ (fun x y : EReal => x * y) (point_weights m c t r j)
    ((Cert.KernelIdeal.Body.values_apply (vBlk m c t) j d).trans (vblk_apply m c t j d))

/-- What point t writes back to the output array is block t of the output over the reshaped arrays. -/
theorem flushed_output (c : Dev nD) (t : Fin cfg0.N) :
    (dats m 0 c).flushed 5 t
      = ((cfg0.win 5).blk t).view.read (Elt Ideal) (output3 (qArr m c) (kArr m c) (vArr m c) (bArr m c) (mArr m c)) := by
  show (cfg0.win 5).cut (grid0.coords t) ((dats m 0 c).after 5 t) = _
  rw [after0_5]
  unfold out0_5
  rw [View.canon_unit_zero hz3]
  simp only [View.ld_unit_zero (S := S1x512x64) hz3, View.ld_unit_zero (S := S1x2048x64) hz3, View.ld_unit_zero (S := S1x512x2048) hz3]
  refine funext fun (y : S1x512x64.Idx) => ?_
  obtain ⟨u, r, d, rfl⟩ : ∃ (u : Fin 1) (r : Fin 512) (d : Fin 64), y = ix3 u r d := ⟨y 0, y 1, y 2, eq_ix3 y⟩
  obtain rfl : u = 0 := Subsingleton.elim _ _
  obtain ⟨-, -, -, -, -, ⟨e0, e1, e2⟩, -⟩ := idx_facts t
  have hemb : ((cfg0.win 5).blk t).view.emb (ix3 (0 : Fin 1) r d) = ix3 (hd t) (rw_ t r) d :=
    funext fun a => Fin.ext (by
      match a with
      | ⟨0, _⟩ => show win0_5.index t 0 * 1 + 1 * 0 = win0_6.index t 0; omega
      | ⟨1, _⟩ => show win0_5.index t 1 * 512 + 1 * r.val = win0_6.index t 1 * 512 + r.val; omega
      | ⟨2, _⟩ => show win0_5.index t 2 * 64 + 1 * d.val = d.val; omega)
  show k0_pay1 (F := Ideal) (k0_pay2 (F := Ideal) (qBlk m c t) (kBlk m c t) (bBlk m c t) (mBlk m c t)) (k0_pay4 (F := Ideal) (vBlk m c t))
      (ix3 (0 : Fin 1) r d)
    = output3 (qArr m c) (kArr m c) (vArr m c) (bArr m c) (mArr m c) (((cfg0.win 5).blk t).view.emb (ix3 (0 : Fin 1) r d))
  rw [hemb, output3_apply]
  exact point_output m c t r d

/-! ## The blocks tile the two output arrays -/

/-- An index of the weights array is in point t's block iff each coordinate is in the block's range on its axis. -/
theorem mem_blk6 (t : Fin cfg0.N) (i : S8x2048x2048.Idx) :
    i ∈ ((cfg0.win 6).blk t).view.set ↔ ∀ a : Fin 3, win0_6.index t a * S1x512x2048.size a ≤ (i a).val
      ∧ (i a).val < win0_6.index t a * S1x512x2048.size a + S1x512x2048.size a := by
  show i ∈ ((View.whole main_v8_1).slice (win0_6.rect t)).set ↔ _
  rw [View.set_slice_whole, Rect.mem_set_unit]
  exact Iff.rfl

/-- The same for the output array. -/
theorem mem_blk5 (t : Fin cfg0.N) (i : S8x2048x64.Idx) :
    i ∈ ((cfg0.win 5).blk t).view.set ↔ ∀ a : Fin 3, win0_5.index t a * S1x512x64.size a ≤ (i a).val
      ∧ (i a).val < win0_5.index t a * S1x512x64.size a + S1x512x64.size a := by
  show i ∈ ((View.whole main_v8_0).slice (win0_5.rect t)).set ↔ _
  rw [View.set_slice_whole, Rect.mem_set_unit]
  exact Iff.rfl

/-- Every entry (h, i, j) of the weights array lies in the block of the point (h, i / 512). -/
theorem cover6 (i : S8x2048x2048.Idx) : ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 2048 := (i 2).isLt
  obtain ⟨t, ht0, ht1⟩ := idx_onto ⟨(i 0).val, hi0⟩ ⟨(i 1).val / 512, by omega⟩
  have ht0' : win0_6.index t 0 = (i 0).val := ht0
  have ht1' : win0_6.index t 1 = (i 1).val / 512 := ht1
  obtain ⟨-, -, -, -, -, -, ⟨-, -, ht2⟩⟩ := idx_facts t
  refine ⟨t, flush0_6 t, ?_⟩
  rw [mem_blk6]
  intro a
  match a with
  | ⟨0, _⟩ => show win0_6.index t 0 * 1 ≤ (i 0).val ∧ (i 0).val < win0_6.index t 0 * 1 + 1; omega
  | ⟨1, _⟩ => show win0_6.index t 1 * 512 ≤ (i 1).val ∧ (i 1).val < win0_6.index t 1 * 512 + 512; omega
  | ⟨2, _⟩ => show win0_6.index t 2 * 2048 ≤ (i 2).val ∧ (i 2).val < win0_6.index t 2 * 2048 + 2048; omega

/-- Every entry (h, i, d) of the output array lies in the block of the point (h, i / 512). -/
theorem cover5 (i : S8x2048x64.Idx) : ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 64 := (i 2).isLt
  obtain ⟨t, ht0, ht1⟩ := idx_onto ⟨(i 0).val, hi0⟩ ⟨(i 1).val / 512, by omega⟩
  have ht0' : win0_6.index t 0 = (i 0).val := ht0
  have ht1' : win0_6.index t 1 = (i 1).val / 512 := ht1
  obtain ⟨-, -, -, -, -, ⟨e0, e1, e2⟩, -⟩ := idx_facts t
  refine ⟨t, flush0_5 t, ?_⟩
  rw [mem_blk5]
  intro a
  match a with
  | ⟨0, _⟩ => show win0_5.index t 0 * 1 ≤ (i 0).val ∧ (i 0).val < win0_5.index t 0 * 1 + 1; omega
  | ⟨1, _⟩ => show win0_5.index t 1 * 512 ≤ (i 1).val ∧ (i 1).val < win0_5.index t 1 * 512 + 512; omega
  | ⟨2, _⟩ => show win0_5.index t 2 * 64 ≤ (i 2).val ∧ (i 2).val < win0_5.index t 2 * 64 + 64; omega

/-- The weights array after the run. -/
theorem final_weights (c : Dev nD) :
    (dats m 0 c).arrAt 6 cfg0.N = weights3 (qArr m c) (kArr m c) (bArr m c) (mArr m c) :=
  (dats m 0 c).arrAt_eq_of_cover 6 (weights3 (qArr m c) (kArr m c) (bArr m c) (mArr m c)) (fun t _ => flushed_weights m c t) cover6

/-- The output array after the run. -/
theorem final_output (c : Dev nD) :
    (dats m 0 c).arrAt 5 cfg0.N = output3 (qArr m c) (kArr m c) (vArr m c) (bArr m c) (mArr m c) :=
  (dats m 0 c).arrAt_eq_of_cover 5 (output3 (qArr m c) (kArr m c) (vArr m c) (bArr m c) (mArr m c)) (fun t _ => flushed_output m c t) cover5

/-! ## The two results: the output arrays reshaped back -/

/-- The program's first result is the output array with a leading unit axis. -/
theorem result_output (c : Dev nD) :
    Pipeline.afterTail₀ cfgs (dats m) 0 (V0 m) [hostOps1] c main_v9
      = shapeCast S1x8x2048x64 (output3 (qArr m c) (kArr m c) (vArr m c) (bArr m c) (mArr m c)) shapeCasts_S8x2048x64_S1x8x2048x64 := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8_0)
      = output3 (qArr m c) (kArr m c) (vArr m c) (bArr m c) (mArr m c) :=
    (Pipeline.withArrays_arr spec0 launch0.win.arr_inj c _ _ 5).trans (final_output m c)
  refine funext fun i => ?_
  exact congrArg (fun a : S8x2048x64.Idx → EReal => shapeCast S1x8x2048x64 a shapeCasts_S8x2048x64_S1x8x2048x64 i) hw

/-- The program's second result is the weights array with a leading unit axis. -/
theorem result_weights (c : Dev nD) :
    Pipeline.afterTail₀ cfgs (dats m) 0 (V0 m) [hostOps1] c main_v10
      = shapeCast S1x8x2048x2048 (weights3 (qArr m c) (kArr m c) (bArr m c) (mArr m c)) shapeCasts_S8x2048x2048_S1x8x2048x2048 := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v8_1)
      = weights3 (qArr m c) (kArr m c) (bArr m c) (mArr m c) :=
    (Pipeline.withArrays_arr spec0 launch0.win.arr_inj c _ _ 6).trans (final_weights m c)
  refine funext fun i => ?_
  exact congrArg (fun a : S8x2048x2048.Idx → EReal => shapeCast S1x8x2048x2048 a shapeCasts_S8x2048x2048_S1x8x2048x2048 i) hw

/-! ## The run, read -/

/-- Every weakly fair execution of the program terminates with the two results at the reshaped output and weights
    arrays, and the five arguments unchanged. -/
theorem run_values : θ_run defs (onTc (τ := τ) (main (F := Ideal))) ⟨m, fun _ => 0, ρ⟩ fun r => ∀ c : Dev nD,
      r.2.mem ((c.tc : Thread nD τ).loc main_v9)
          = shapeCast S1x8x2048x64 (output3 (qArr m c) (kArr m c) (vArr m c) (bArr m c) (mArr m c)) shapeCasts_S8x2048x64_S1x8x2048x64
      ∧ r.2.mem ((c.tc : Thread nD τ).loc main_v10)
          = shapeCast S1x8x2048x2048 (weights3 (qArr m c) (kArr m c) (bArr m c) (mArr m c)) shapeCasts_S8x2048x2048_S1x8x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans (result_output m c),
      ((h c).2 main_v10 (Pipeline.mem_restRefs_of main_v10 (by decide) (by decide))).trans (result_weights m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arrays

end
-- ==== Proof.KernelSpec.lean ====
/-
  The kernel's two results are the specification's arrays whenever q, k and the bias hold real numbers. Entry
  (0, h, i, ·) of a result is the row (h, i) of the reshaped arrays; the reshapes are read back to the arguments;
  the kernel's factor 0.125 is the reference's divisor 8; and over real data the product with the reciprocal of the
  row sum is the quotient by it.
-/
import proofs.«413361_j67276367725148_3_alg».proof.Proof.KernelValue
import proofs.«413361_j67276367725148_3_alg».proof.Proof.Softmax
import Idealize.ShloMosaic.Lib.ValueIdx
import Idealize.ShloMosaic.Lib.ValueLayout

noncomputable section

namespace Cert.KernelIdeal.Arrays

open Idealize.ShloMosaic Idealize.ShloMosaic.TcCoe Idealize.SL.Sem
open Idealize.ShloMosaic.ValueIdx
open Cert.KernelIdeal Cert.KernelIdeal.Gen Cert.Softmax

variable (m : (ℓ : Loc nD τ sig) → Buf (Elt Ideal) ℓ)

/-- The five arguments as launched, at their literal types. -/
abbrev qArg (c : Dev nD) : SQ.Idx → EReal := m ((c.tc : Thread nD τ).loc main_arg0)
abbrev kArg (c : Dev nD) : SQ.Idx → EReal := m ((c.tc : Thread nD τ).loc main_arg1)
abbrev vArg (c : Dev nD) : SQ.Idx → EReal := m ((c.tc : Thread nD τ).loc main_arg2)
abbrev bArg (c : Dev nD) : SP.Idx → EReal := m ((c.tc : Thread nD τ).loc main_arg3)
abbrev mArg (c : Dev nD) : SP.Idx → BitVec 32 := m ((c.tc : Thread nD τ).loc main_arg4)

/-- Row (h, i) over the reshaped arrays is row (h, i) over the arguments: the scaled query, -/
theorem qs3_eq (c : Dev nD) (h : Fin 8) (i : Fin 2048) : qs3 (qArr m c) h i = qrow (qArg m c) h i :=
  funext fun d => by
    show qArr m c (ix3 h i d) * eighth = Ideal.div (qArg m c (ix4 (0 : Fin 1) h i d)) eight
    rw [qArr_apply, scale_eq]
/-- the keys, -/
theorem kmat3_eq (c : Dev nD) (h : Fin 8) : mat3 (kArr m c) h = hmat (kArg m c) h :=
  funext fun j => funext fun d => kArr_apply m c h j d
/-- the values, -/
theorem vmat3_eq (c : Dev nD) (h : Fin 8) : mat3 (vArr m c) h = hmat (vArg m c) h :=
  funext fun j => funext fun d => vArr_apply m c h j d
/-- the bias -/
theorem bias3_eq (c : Dev nD) (h : Fin 8) (i : Fin 2048) : bias3 (bArr m c) h i = brow (bArg m c) h i :=
  funext fun j => bArr_apply m c h i j
/-- and the mask. -/
theorem mask3_eq (c : Dev nD) (h : Fin 8) (i : Fin 2048) : mask3 (mArr m c) h i = mrow (mArg m c) h i :=
  funext fun j => mArr_apply m c h i j

/-- Equal row data give equal outputs. -/
theorem outK_congr {qs qs' : Fin 64 → EReal} {km km' : Fin 2048 → Fin 64 → EReal} {bias bias' : Fin 2048 → EReal}
    {msk msk' : Fin 2048 → BitVec 32} {vm vm' : Fin 2048 → Fin 64 → EReal}
    (h0 : qs = qs') (h1 : km = km') (h2 : bias = bias') (h3 : msk = msk') (h4 : vm = vm') (d : Fin 64) :
    outK qs km bias msk vm d = outK qs' km' bias' msk' vm' d := by
  subst h0 h1 h2 h3 h4; rfl

/-- The kernel's weights result is the specification's weights array. -/
theorem weights_eq_spec (c : Dev nD) (hq : ∀ y, ∃ r : ℝ, qArg m c y = (r : EReal)) (hk : ∀ y, ∃ r : ℝ, kArg m c y = (r : EReal))
    (hb : ∀ y, ∃ r : ℝ, bArg m c y = (r : EReal)) :
    shapeCast S1x8x2048x2048 (weights3 (qArr m c) (kArr m c) (bArr m c) (mArr m c)) shapeCasts_S8x2048x2048_S1x8x2048x2048
      = attnP (qArg m c) (kArg m c) (bArg m c) (mArg m c) := by
  funext y
  obtain ⟨a, h, i, j, rfl⟩ : ∃ (a : Fin 1) (h : Fin 8) (i j : Fin 2048), y = ix4 a h i j := ⟨y 0, y 1, y 2, y 3, eq_ix4 y⟩
  rw [attnP_apply]
  refine (shapeCast_abc_1abc_apply _ _ a h i j).trans ?_
  rw [weights3_apply]
  refine (probK_congr (qs3_eq m c h i) (kmat3_eq m c h) (bias3_eq m c h i) (mask3_eq m c h i) j).trans ?_
  exact probK_eq_prob _ _ _ _ (fun d => real_div_eight (hq _)) (fun j' d => hk _) (fun j' => hb _) j

/-- The kernel's output result is the specification's output array. -/
theorem output_eq_spec (c : Dev nD) (hq : ∀ y, ∃ r : ℝ, qArg m c y = (r : EReal)) (hk : ∀ y, ∃ r : ℝ, kArg m c y = (r : EReal))
    (hb : ∀ y, ∃ r : ℝ, bArg m c y = (r : EReal)) :
    shapeCast S1x8x2048x64 (output3 (qArr m c) (kArr m c) (vArr m c) (bArr m c) (mArr m c)) shapeCasts_S8x2048x64_S1x8x2048x64
      = attnO (qArg m c) (kArg m c) (vArg m c) (bArg m c) (mArg m c) := by
  funext y
  obtain ⟨a, h, i, d, rfl⟩ : ∃ (a : Fin 1) (h : Fin 8) (i : Fin 2048) (d : Fin 64), y = ix4 a h i d := ⟨y 0, y 1, y 2, y 3, eq_ix4 y⟩
  rw [attnO_apply]
  refine (shapeCast_abc_1abc_apply _ _ a h i d).trans ?_
  rw [output3_apply]
  refine (outK_congr (qs3_eq m c h i) (kmat3_eq m c h) (bias3_eq m c h i) (mask3_eq m c h i) (vmat3_eq m c h) d).trans ?_
  exact outK_eq_out _ _ _ _ _ (fun d' => real_div_eight (hq _)) (fun j' d' => hk _) (fun j' => hb _) d

end Cert.KernelIdeal.Arrays

end
-- ==== Proof.lean ====
/-
  The kernel — scaled dot-product attention with a multiplicative bias and an integer mask, one grid point per
  (head, block of 512 query rows), full-row softmax, returning the output and the attention weights — against its
  jnp reference, over the extended reals.
  Both programs compute, for each row, scores (q · ⅛) kᵀ ⊙ bias with the masked entries replaced by one and the same
  finite word, subtract the row maximum, exponentiate, normalise by the row sum, and apply the weights to v. They differ
  in three places: the kernel multiplies q by 0.125 where the reference divides by 8 (equal on every extended real); the
  reference takes the row maximum once more against −∞ (no change); and the kernel multiplies by the reciprocal of the
  row sum where the reference divides by it — equal as soon as the row sum is not zero, which the precondition gives:
  over finite q, k and bias every score is real, so every exponential is positive.
  The three frames are the generated ones (the reference's is its run with the results dropped); nothing was idealized,
  so there is nothing to preserve.
-/
import proofs.«413361_j67276367725148_3_alg».proof.Defs
import proofs.«413361_j67276367725148_3_alg».proof.Proof.Gen.Kernel
import proofs.«413361_j67276367725148_3_alg».proof.Proof.Gen.Kernel.Skeleton
import proofs.«413361_j67276367725148_3_alg».proof.Proof.Gen.Kernel.Launch
import proofs.«413361_j67276367725148_3_alg».proof.Proof.Gen.Kernel.Points
import proofs.«413361_j67276367725148_3_alg».proof.Proof.Gen.Kernel.Frame
import proofs.«413361_j67276367725148_3_alg».proof.Proof.Gen.KernelIdeal
import proofs.«413361_j67276367725148_3_alg».proof.Proof.Gen.KernelIdeal.Skeleton
import proofs.«413361_j67276367725148_3_alg».proof.Proof.Gen.KernelIdeal.Launch
import proofs.«413361_j67276367725148_3_alg».proof.Proof.Gen.KernelIdeal.Points
import proofs.«413361_j67276367725148_3_alg».proof.Proof.Gen.KernelIdeal.Frame
import proofs.«413361_j67276367725148_3_alg».proof.Proof.Gen.ReferenceIdeal
import proofs.«413361_j67276367725148_3_alg».proof.Proof.Gen.Pre_finite_inputs
import proofs.«413361_j67276367725148_3_alg».proof.Proof.Gen.ReferenceIdeal.Run
import proofs.«413361_j67276367725148_3_alg».proof.Proof.Gen.ReferenceIdeal.Read
import proofs.«413361_j67276367725148_3_alg».proof.Proof.Softmax
import proofs.«413361_j67276367725148_3_alg».proof.Proof.RealInputs
import proofs.«413361_j67276367725148_3_alg».proof.Proof.RefValue
import proofs.«413361_j67276367725148_3_alg».proof.Proof.KernelValue
import proofs.«413361_j67276367725148_3_alg».proof.Proof.KernelSpec
import Idealize.ShloMosaic.Adequacy
import Idealize.ShloMosaic.Init

noncomputable section

namespace Cert.Proof

open Idealize.ShloMosaic Idealize.SL.Sem Cert.Softmax

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's output and weights arrays of the (agreeing) arguments: the kernel by its
    run read as whole arrays and the three laws, under the precondition's finiteness; the reference by its run read
    operation by operation. -/
theorem algebraic : Cert.algebraic_KernelIdeal_ReferenceIdeal := by
  intro m ρ m' ρ' hpre hagree
  refine ⟨fun c => attnO (Cert.KernelIdeal.Arrays.qArg m c) (Cert.KernelIdeal.Arrays.kArg m c) (Cert.KernelIdeal.Arrays.vArg m c)
      (Cert.KernelIdeal.Arrays.bArg m c) (Cert.KernelIdeal.Arrays.mArg m c),
    fun c => attnP (Cert.KernelIdeal.Arrays.qArg m c) (Cert.KernelIdeal.Arrays.kArg m c) (Cert.KernelIdeal.Arrays.bArg m c)
      (Cert.KernelIdeal.Arrays.mArg m c), ?_, ?_⟩
  · refine (θ_run Cert.KernelIdeal.defs _ _).mono (fun _ h c => ?_) (Cert.KernelIdeal.Arrays.run_values m ρ)
    obtain ⟨hq, hk, -, hb⟩ := Cert.Pre_finite_inputs.Real.real_of_pre _ _ _ _ _ (hpre c)
    exact ⟨(h c).1.trans (Cert.KernelIdeal.Arrays.output_eq_spec m c hq hk hb),
      (h c).2.1.trans (Cert.KernelIdeal.Arrays.weights_eq_spec m c hq hk hb), (h c).2.2⟩
  · refine (θ_run Cert.ReferenceIdeal.defs _ _).mono (fun _ h c => ?_) (Cert.ReferenceIdeal.Value.run (F := Ideal) m' ρ')
    obtain ⟨e0, e1, e2, e3, e4⟩ := hagree c
    refine ⟨(h c).1.trans ?_, (h c).2.1.trans ?_, (h c).2.2⟩
    · refine (Cert.ReferenceIdeal.Read.val_main_v18_eq _ _ _ _ _).trans ((Cert.ReferenceIdeal.RefValue.output_eq _ _ _ _ _).trans ?_)
      rw [e0, e1, e2, e3, e4]
    · refine (Cert.ReferenceIdeal.Read.val_main_v17_eq _ _ _ _).trans ((Cert.ReferenceIdeal.RefValue.weights_eq _ _ _ _).trans ?_)
      rw [e0, e1, e3, e4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
